-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x128 : Shape := ⟨3, ![16384, 64, 128]⟩
abbrev S_ : Shape := ⟨0, ![]⟩

class Facts : Prop where
  bcast_S_S16384x64x128 : S_.BroadcastsInDim S16384x64x128 (![] : Fin 0 → Fin S16384x64x128.rank)
  reducesTo_S16384x64x128_S_d0_1_2 : S16384x64x128.ReducesTo [0, 1, 2] S_
  h_S_ : 0 < S_.numel

variable [Facts]

def fn {F : FTy → Type} [FloatOps F] (main_arg0 : FVec F S16384x64x128 .f32) : IVec S_ 1 :=
  let main_v0 : FVec F S16384x64x128 .f32 := Host.absf main_arg0
  let main_cst : FVec F S_ .f32 := constant S_ .f32 0x7F800000#32
  let main_v1 : FVec F S16384x64x128 .f32 := broadcastInDim S16384x64x128 ![] bcast_S_S16384x64x128 main_cst
  let main_v2 : IVec S16384x64x128 1 := cmpf .olt main_v0 main_v1
  let main_c : IVec S_ 1 := constantI S_ 1 1#1
  let main_v3 : IVec S_ 1 := (fun x v => Host.reduce IntOp.andi x v reducesTo_S16384x64x128_S_d0_1_2 h_S_) main_v2 main_c
  main_v3
-- ==== Kernel.lean ====
abbrev S16384x64x128 : Shape := ⟨3, ![16384, 64, 128]⟩
abbrev S16384x2016 : Shape := ⟨2, ![16384, 2016]⟩
abbrev S128x64x128 : Shape := ⟨3, ![128, 64, 128]⟩
abbrev S128x2016 : Shape := ⟨2, ![128, 2016]⟩
abbrev S128x64x64 : Shape := ⟨3, ![128, 64, 64]⟩
abbrev S128x1x63 : Shape := ⟨3, ![128, 1, 63]⟩
abbrev S128x63 : Shape := ⟨2, ![128, 63]⟩
abbrev S128x1x62 : Shape := ⟨3, ![128, 1, 62]⟩
abbrev S128x62 : Shape := ⟨2, ![128, 62]⟩
abbrev S128x1x61 : Shape := ⟨3, ![128, 1, 61]⟩
abbrev S128x61 : Shape := ⟨2, ![128, 61]⟩
abbrev S128x1x60 : Shape := ⟨3, ![128, 1, 60]⟩
abbrev S128x60 : Shape := ⟨2, ![128, 60]⟩
abbrev S128x1x59 : Shape := ⟨3, ![128, 1, 59]⟩
abbrev S128x59 : Shape := ⟨2, ![128, 59]⟩
abbrev S128x1x58 : Shape := ⟨3, ![128, 1, 58]⟩
abbrev S128x58 : Shape := ⟨2, ![128, 58]⟩
abbrev S128x1x57 : Shape := ⟨3, ![128, 1, 57]⟩
abbrev S128x57 : Shape := ⟨2, ![128, 57]⟩
abbrev S128x1x56 : Shape := ⟨3, ![128, 1, 56]⟩
abbrev S128x56 : Shape := ⟨2, ![128, 56]⟩
abbrev S128x1x55 : Shape := ⟨3, ![128, 1, 55]⟩
abbrev S128x55 : Shape := ⟨2, ![128, 55]⟩
abbrev S128x1x54 : Shape := ⟨3, ![128, 1, 54]⟩
abbrev S128x54 : Shape := ⟨2, ![128, 54]⟩
abbrev S128x1x53 : Shape := ⟨3, ![128, 1, 53]⟩
abbrev S128x53 : Shape := ⟨2, ![128, 53]⟩
abbrev S128x1x52 : Shape := ⟨3, ![128, 1, 52]⟩
abbrev S128x52 : Shape := ⟨2, ![128, 52]⟩
abbrev S128x1x51 : Shape := ⟨3, ![128, 1, 51]⟩
abbrev S128x51 : Shape := ⟨2, ![128, 51]⟩
abbrev S128x1x50 : Shape := ⟨3, ![128, 1, 50]⟩
abbrev S128x50 : Shape := ⟨2, ![128, 50]⟩
abbrev S128x1x49 : Shape := ⟨3, ![128, 1, 49]⟩
abbrev S128x49 : Shape := ⟨2, ![128, 49]⟩
abbrev S128x1x48 : Shape := ⟨3, ![128, 1, 48]⟩
abbrev S128x48 : Shape := ⟨2, ![128, 48]⟩
abbrev S128x1x47 : Shape := ⟨3, ![128, 1, 47]⟩
abbrev S128x47 : Shape := ⟨2, ![128, 47]⟩
abbrev S128x1x46 : Shape := ⟨3, ![128, 1, 46]⟩
abbrev S128x46 : Shape := ⟨2, ![128, 46]⟩
abbrev S128x1x45 : Shape := ⟨3, ![128, 1, 45]⟩
abbrev S128x45 : Shape := ⟨2, ![128, 45]⟩
abbrev S128x1x44 : Shape := ⟨3, ![128, 1, 44]⟩
abbrev S128x44 : Shape := ⟨2, ![128, 44]⟩
abbrev S128x1x43 : Shape := ⟨3, ![128, 1, 43]⟩
abbrev S128x43 : Shape := ⟨2, ![128, 43]⟩
abbrev S128x1x42 : Shape := ⟨3, ![128, 1, 42]⟩
abbrev S128x42 : Shape := ⟨2, ![128, 42]⟩
abbrev S128x1x41 : Shape := ⟨3, ![128, 1, 41]⟩
abbrev S128x41 : Shape := ⟨2, ![128, 41]⟩
abbrev S128x1x40 : Shape := ⟨3, ![128, 1, 40]⟩
abbrev S128x40 : Shape := ⟨2, ![128, 40]⟩
abbrev S128x1x39 : Shape := ⟨3, ![128, 1, 39]⟩
abbrev S128x39 : Shape := ⟨2, ![128, 39]⟩
abbrev S128x1x38 : Shape := ⟨3, ![128, 1, 38]⟩
abbrev S128x38 : Shape := ⟨2, ![128, 38]⟩
abbrev S128x1x37 : Shape := ⟨3, ![128, 1, 37]⟩
abbrev S128x37 : Shape := ⟨2, ![128, 37]⟩
abbrev S128x1x36 : Shape := ⟨3, ![128, 1, 36]⟩
abbrev S128x36 : Shape := ⟨2, ![128, 36]⟩
abbrev S128x1x35 : Shape := ⟨3, ![128, 1, 35]⟩
abbrev S128x35 : Shape := ⟨2, ![128, 35]⟩
abbrev S128x1x34 : Shape := ⟨3, ![128, 1, 34]⟩
abbrev S128x34 : Shape := ⟨2, ![128, 34]⟩
abbrev S128x1x33 : Shape := ⟨3, ![128, 1, 33]⟩
abbrev S128x33 : Shape := ⟨2, ![128, 33]⟩
abbrev S128x1x32 : Shape := ⟨3, ![128, 1, 32]⟩
abbrev S128x32 : Shape := ⟨2, ![128, 32]⟩
abbrev S128x1x31 : Shape := ⟨3, ![128, 1, 31]⟩
abbrev S128x31 : Shape := ⟨2, ![128, 31]⟩
abbrev S128x1x30 : Shape := ⟨3, ![128, 1, 30]⟩
abbrev S128x30 : Shape := ⟨2, ![128, 30]⟩
abbrev S128x1x29 : Shape := ⟨3, ![128, 1, 29]⟩
abbrev S128x29 : Shape := ⟨2, ![128, 29]⟩
abbrev S128x1x28 : Shape := ⟨3, ![128, 1, 28]⟩
abbrev S128x28 : Shape := ⟨2, ![128, 28]⟩
abbrev S128x1x27 : Shape := ⟨3, ![128, 1, 27]⟩
abbrev S128x27 : Shape := ⟨2, ![128, 27]⟩
abbrev S128x1x26 : Shape := ⟨3, ![128, 1, 26]⟩
abbrev S128x26 : Shape := ⟨2, ![128, 26]⟩
abbrev S128x1x25 : Shape := ⟨3, ![128, 1, 25]⟩
abbrev S128x25 : Shape := ⟨2, ![128, 25]⟩
abbrev S128x1x24 : Shape := ⟨3, ![128, 1, 24]⟩
abbrev S128x24 : Shape := ⟨2, ![128, 24]⟩
abbrev S128x1x23 : Shape := ⟨3, ![128, 1, 23]⟩
abbrev S128x23 : Shape := ⟨2, ![128, 23]⟩
abbrev S128x1x22 : Shape := ⟨3, ![128, 1, 22]⟩
abbrev S128x22 : Shape := ⟨2, ![128, 22]⟩
abbrev S128x1x21 : Shape := ⟨3, ![128, 1, 21]⟩
abbrev S128x21 : Shape := ⟨2, ![128, 21]⟩
abbrev S128x1x20 : Shape := ⟨3, ![128, 1, 20]⟩
abbrev S128x20 : Shape := ⟨2, ![128, 20]⟩
abbrev S128x1x19 : Shape := ⟨3, ![128, 1, 19]⟩
abbrev S128x19 : Shape := ⟨2, ![128, 19]⟩
abbrev S128x1x18 : Shape := ⟨3, ![128, 1, 18]⟩
abbrev S128x18 : Shape := ⟨2, ![128, 18]⟩
abbrev S128x1x17 : Shape := ⟨3, ![128, 1, 17]⟩
abbrev S128x17 : Shape := ⟨2, ![128, 17]⟩
abbrev S128x1x16 : Shape := ⟨3, ![128, 1, 16]⟩
abbrev S128x16 : Shape := ⟨2, ![128, 16]⟩
abbrev S128x1x15 : Shape := ⟨3, ![128, 1, 15]⟩
abbrev S128x15 : Shape := ⟨2, ![128, 15]⟩
abbrev S128x1x14 : Shape := ⟨3, ![128, 1, 14]⟩
abbrev S128x14 : Shape := ⟨2, ![128, 14]⟩
abbrev S128x1x13 : Shape := ⟨3, ![128, 1, 13]⟩
abbrev S128x13 : Shape := ⟨2, ![128, 13]⟩
abbrev S128x1x12 : Shape := ⟨3, ![128, 1, 12]⟩
abbrev S128x12 : Shape := ⟨2, ![128, 12]⟩
abbrev S128x1x11 : Shape := ⟨3, ![128, 1, 11]⟩
abbrev S128x11 : Shape := ⟨2, ![128, 11]⟩
abbrev S128x1x10 : Shape := ⟨3, ![128, 1, 10]⟩
abbrev S128x10 : Shape := ⟨2, ![128, 10]⟩
abbrev S128x1x9 : Shape := ⟨3, ![128, 1, 9]⟩
abbrev S128x9 : Shape := ⟨2, ![128, 9]⟩
abbrev S128x1x8 : Shape := ⟨3, ![128, 1, 8]⟩
abbrev S128x8 : Shape := ⟨2, ![128, 8]⟩
abbrev S128x1x7 : Shape := ⟨3, ![128, 1, 7]⟩
abbrev S128x7 : Shape := ⟨2, ![128, 7]⟩
abbrev S128x1x6 : Shape := ⟨3, ![128, 1, 6]⟩
abbrev S128x6 : Shape := ⟨2, ![128, 6]⟩
abbrev S128x1x5 : Shape := ⟨3, ![128, 1, 5]⟩
abbrev S128x5 : Shape := ⟨2, ![128, 5]⟩
abbrev S128x1x4 : Shape := ⟨3, ![128, 1, 4]⟩
abbrev S128x4 : Shape := ⟨2, ![128, 4]⟩
abbrev S128x1x3 : Shape := ⟨3, ![128, 1, 3]⟩
abbrev S128x3 : Shape := ⟨2, ![128, 3]⟩
abbrev S128x1x2 : Shape := ⟨3, ![128, 1, 2]⟩
abbrev S128x2 : Shape := ⟨2, ![128, 2]⟩
abbrev S128x1x1 : Shape := ⟨3, ![128, 1, 1]⟩
abbrev S128x1 : Shape := ⟨2, ![128, 1]⟩

abbrev nBuf : Space → Nat
  | .hbm => 2
  | .vmem => 5
  | .smem => 0
  | _ => 0

abbrev bufTy : (tb : Table) → Fin (tcTables nBuf tb) → BufTy
  | .hbm, ⟨0, _⟩ => ⟨S16384x64x128, .f32⟩
  | .hbm, ⟨1, _⟩ => ⟨S16384x2016, .f32⟩
  | .local _ .vmem, ⟨0, _⟩ => ⟨S128x64x128, .f32⟩
  | .local _ .vmem, ⟨1, _⟩ => ⟨S128x64x128, .f32⟩
  | .local _ .vmem, ⟨2, _⟩ => ⟨S128x2016, .f32⟩
  | .local _ .vmem, ⟨3, _⟩ => ⟨S128x2016, .f32⟩
  | .local _ .vmem, ⟨4, _⟩ => ⟨S128x64x64, .f32⟩
  | _, _ => ⟨S16384x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x128_S128x64x128_0_0_0 : ∀ a, (![0, 0, 0] : Fin 3 → Nat) a + S128x64x128.size a ≤ S128x64x128.size a
  h_S128x64x128 : 0 < S128x64x128.numel
  bitsLt_bf16_f32 : FTy.bits .bf16 < FTy.bits .f32
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  slices_S128x64x64_o0_0_1_S128x1x63 : S128x64x64.Slices ![0, 0, 1] S128x1x63
  shapeCasts_S128x1x63_S128x63 : S128x1x63.ShapeCasts S128x63
  inb_S128x2016_S128x63_0_0 : ∀ a, (![0, 0] : Fin 2 → Nat) a + S128x63.size a ≤ S128x2016.size a
  h_S128x63 : 0 < S128x63.numel
  slices_S128x64x64_o0_1_2_S128x1x62 : S128x64x64.Slices ![0, 1, 2] S128x1x62
  shapeCasts_S128x1x62_S128x62 : S128x1x62.ShapeCasts S128x62
  inb_S128x2016_S128x62_0_63 : ∀ a, (![0, 63] : Fin 2 → Nat) a + S128x62.size a ≤ S128x2016.size a
  h_S128x62 : 0 < S128x62.numel
  slices_S128x64x64_o0_2_3_S128x1x61 : S128x64x64.Slices ![0, 2, 3] S128x1x61
  shapeCasts_S128x1x61_S128x61 : S128x1x61.ShapeCasts S128x61
  inb_S128x2016_S128x61_0_125 : ∀ a, (![0, 125] : Fin 2 → Nat) a + S128x61.size a ≤ S128x2016.size a
  h_S128x61 : 0 < S128x61.numel
  slices_S128x64x64_o0_3_4_S128x1x60 : S128x64x64.Slices ![0, 3, 4] S128x1x60
  shapeCasts_S128x1x60_S128x60 : S128x1x60.ShapeCasts S128x60
  inb_S128x2016_S128x60_0_186 : ∀ a, (![0, 186] : Fin 2 → Nat) a + S128x60.size a ≤ S128x2016.size a
  h_S128x60 : 0 < S128x60.numel
  slices_S128x64x64_o0_4_5_S128x1x59 : S128x64x64.Slices ![0, 4, 5] S128x1x59
  shapeCasts_S128x1x59_S128x59 : S128x1x59.ShapeCasts S128x59
  inb_S128x2016_S128x59_0_246 : ∀ a, (![0, 246] : Fin 2 → Nat) a + S128x59.size a ≤ S128x2016.size a
  h_S128x59 : 0 < S128x59.numel
  slices_S128x64x64_o0_5_6_S128x1x58 : S128x64x64.Slices ![0, 5, 6] S128x1x58
  shapeCasts_S128x1x58_S128x58 : S128x1x58.ShapeCasts S128x58
  inb_S128x2016_S128x58_0_305 : ∀ a, (![0, 305] : Fin 2 → Nat) a + S128x58.size a ≤ S128x2016.size a
  h_S128x58 : 0 < S128x58.numel
  slices_S128x64x64_o0_6_7_S128x1x57 : S128x64x64.Slices ![0, 6, 7] S128x1x57
  shapeCasts_S128x1x57_S128x57 : S128x1x57.ShapeCasts S128x57
  inb_S128x2016_S128x57_0_363 : ∀ a, (![0, 363] : Fin 2 → Nat) a + S128x57.size a ≤ S128x2016.size a
  h_S128x57 : 0 < S128x57.numel
  slices_S128x64x64_o0_7_8_S128x1x56 : S128x64x64.Slices ![0, 7, 8] S128x1x56
  shapeCasts_S128x1x56_S128x56 : S128x1x56.ShapeCasts S128x56
  inb_S128x2016_S128x56_0_420 : ∀ a, (![0, 420] : Fin 2 → Nat) a + S128x56.size a ≤ S128x2016.size a
  h_S128x56 : 0 < S128x56.numel
  slices_S128x64x64_o0_8_9_S128x1x55 : S128x64x64.Slices ![0, 8, 9] S128x1x55
  shapeCasts_S128x1x55_S128x55 : S128x1x55.ShapeCasts S128x55
  inb_S128x2016_S128x55_0_476 : ∀ a, (![0, 476] : Fin 2 → Nat) a + S128x55.size a ≤ S128x2016.size a
  h_S128x55 : 0 < S128x55.numel
  slices_S128x64x64_o0_9_10_S128x1x54 : S128x64x64.Slices ![0, 9, 10] S128x1x54
  shapeCasts_S128x1x54_S128x54 : S128x1x54.ShapeCasts S128x54
  inb_S128x2016_S128x54_0_531 : ∀ a, (![0, 531] : Fin 2 → Nat) a + S128x54.size a ≤ S128x2016.size a
  h_S128x54 : 0 < S128x54.numel
  slices_S128x64x64_o0_10_11_S128x1x53 : S128x64x64.Slices ![0, 10, 11] S128x1x53
  shapeCasts_S128x1x53_S128x53 : S128x1x53.ShapeCasts S128x53
  inb_S128x2016_S128x53_0_585 : ∀ a, (![0, 585] : Fin 2 → Nat) a + S128x53.size a ≤ S128x2016.size a
  h_S128x53 : 0 < S128x53.numel
  slices_S128x64x64_o0_11_12_S128x1x52 : S128x64x64.Slices ![0, 11, 12] S128x1x52
  shapeCasts_S128x1x52_S128x52 : S128x1x52.ShapeCasts S128x52
  inb_S128x2016_S128x52_0_638 : ∀ a, (![0, 638] : Fin 2 → Nat) a + S128x52.size a ≤ S128x2016.size a
  h_S128x52 : 0 < S128x52.numel
  slices_S128x64x64_o0_12_13_S128x1x51 : S128x64x64.Slices ![0, 12, 13] S128x1x51
  shapeCasts_S128x1x51_S128x51 : S128x1x51.ShapeCasts S128x51
  inb_S128x2016_S128x51_0_690 : ∀ a, (![0, 690] : Fin 2 → Nat) a + S128x51.size a ≤ S128x2016.size a
  h_S128x51 : 0 < S128x51.numel
  slices_S128x64x64_o0_13_14_S128x1x50 : S128x64x64.Slices ![0, 13, 14] S128x1x50
  shapeCasts_S128x1x50_S128x50 : S128x1x50.ShapeCasts S128x50
  inb_S128x2016_S128x50_0_741 : ∀ a, (![0, 741] : Fin 2 → Nat) a + S128x50.size a ≤ S128x2016.size a
  h_S128x50 : 0 < S128x50.numel
  slices_S128x64x64_o0_14_15_S128x1x49 : S128x64x64.Slices ![0, 14, 15] S128x1x49
  shapeCasts_S128x1x49_S128x49 : S128x1x49.ShapeCasts S128x49
  inb_S128x2016_S128x49_0_791 : ∀ a, (![0, 791] : Fin 2 → Nat) a + S128x49.size a ≤ S128x2016.size a
  h_S128x49 : 0 < S128x49.numel
  slices_S128x64x64_o0_15_16_S128x1x48 : S128x64x64.Slices ![0, 15, 16] S128x1x48
  shapeCasts_S128x1x48_S128x48 : S128x1x48.ShapeCasts S128x48
  inb_S128x2016_S128x48_0_840 : ∀ a, (![0, 840] : Fin 2 → Nat) a + S128x48.size a ≤ S128x2016.size a
  h_S128x48 : 0 < S128x48.numel
  slices_S128x64x64_o0_16_17_S128x1x47 : S128x64x64.Slices ![0, 16, 17] S128x1x47
  shapeCasts_S128x1x47_S128x47 : S128x1x47.ShapeCasts S128x47
  inb_S128x2016_S128x47_0_888 : ∀ a, (![0, 888] : Fin 2 → Nat) a + S128x47.size a ≤ S128x2016.size a
  h_S128x47 : 0 < S128x47.numel
  slices_S128x64x64_o0_17_18_S128x1x46 : S128x64x64.Slices ![0, 17, 18] S128x1x46
  shapeCasts_S128x1x46_S128x46 : S128x1x46.ShapeCasts S128x46
  inb_S128x2016_S128x46_0_935 : ∀ a, (![0, 935] : Fin 2 → Nat) a + S128x46.size a ≤ S128x2016.size a
  h_S128x46 : 0 < S128x46.numel
  slices_S128x64x64_o0_18_19_S128x1x45 : S128x64x64.Slices ![0, 18, 19] S128x1x45
  shapeCasts_S128x1x45_S128x45 : S128x1x45.ShapeCasts S128x45
  inb_S128x2016_S128x45_0_981 : ∀ a, (![0, 981] : Fin 2 → Nat) a + S128x45.size a ≤ S128x2016.size a
  h_S128x45 : 0 < S128x45.numel
  slices_S128x64x64_o0_19_20_S128x1x44 : S128x64x64.Slices ![0, 19, 20] S128x1x44
  shapeCasts_S128x1x44_S128x44 : S128x1x44.ShapeCasts S128x44
  inb_S128x2016_S128x44_0_1026 : ∀ a, (![0, 1026] : Fin 2 → Nat) a + S128x44.size a ≤ S128x2016.size a
  h_S128x44 : 0 < S128x44.numel
  slices_S128x64x64_o0_20_21_S128x1x43 : S128x64x64.Slices ![0, 20, 21] S128x1x43
  shapeCasts_S128x1x43_S128x43 : S128x1x43.ShapeCasts S128x43
  inb_S128x2016_S128x43_0_1070 : ∀ a, (![0, 1070] : Fin 2 → Nat) a + S128x43.size a ≤ S128x2016.size a
  h_S128x43 : 0 < S128x43.numel
  slices_S128x64x64_o0_21_22_S128x1x42 : S128x64x64.Slices ![0, 21, 22] S128x1x42
  shapeCasts_S128x1x42_S128x42 : S128x1x42.ShapeCasts S128x42
  inb_S128x2016_S128x42_0_1113 : ∀ a, (![0, 1113] : Fin 2 → Nat) a + S128x42.size a ≤ S128x2016.size a
  h_S128x42 : 0 < S128x42.numel
  slices_S128x64x64_o0_22_23_S128x1x41 : S128x64x64.Slices ![0, 22, 23] S128x1x41
  shapeCasts_S128x1x41_S128x41 : S128x1x41.ShapeCasts S128x41
  inb_S128x2016_S128x41_0_1155 : ∀ a, (![0, 1155] : Fin 2 → Nat) a + S128x41.size a ≤ S128x2016.size a
  h_S128x41 : 0 < S128x41.numel
  slices_S128x64x64_o0_23_24_S128x1x40 : S128x64x64.Slices ![0, 23, 24] S128x1x40
  shapeCasts_S128x1x40_S128x40 : S128x1x40.ShapeCasts S128x40
  inb_S128x2016_S128x40_0_1196 : ∀ a, (![0, 1196] : Fin 2 → Nat) a + S128x40.size a ≤ S128x2016.size a
  h_S128x40 : 0 < S128x40.numel
  slices_S128x64x64_o0_24_25_S128x1x39 : S128x64x64.Slices ![0, 24, 25] S128x1x39
  shapeCasts_S128x1x39_S128x39 : S128x1x39.ShapeCasts S128x39
  inb_S128x2016_S128x39_0_1236 : ∀ a, (![0, 1236] : Fin 2 → Nat) a + S128x39.size a ≤ S128x2016.size a
  h_S128x39 : 0 < S128x39.numel
  slices_S128x64x64_o0_25_26_S128x1x38 : S128x64x64.Slices ![0, 25, 26] S128x1x38
  shapeCasts_S128x1x38_S128x38 : S128x1x38.ShapeCasts S128x38
  inb_S128x2016_S128x38_0_1275 : ∀ a, (![0, 1275] : Fin 2 → Nat) a + S128x38.size a ≤ S128x2016.size a
  h_S128x38 : 0 < S128x38.numel
  slices_S128x64x64_o0_26_27_S128x1x37 : S128x64x64.Slices ![0, 26, 27] S128x1x37
  shapeCasts_S128x1x37_S128x37 : S128x1x37.ShapeCasts S128x37
  inb_S128x2016_S128x37_0_1313 : ∀ a, (![0, 1313] : Fin 2 → Nat) a + S128x37.size a ≤ S128x2016.size a
  h_S128x37 : 0 < S128x37.numel
  slices_S128x64x64_o0_27_28_S128x1x36 : S128x64x64.Slices ![0, 27, 28] S128x1x36
  shapeCasts_S128x1x36_S128x36 : S128x1x36.ShapeCasts S128x36
  inb_S128x2016_S128x36_0_1350 : ∀ a, (![0, 1350] : Fin 2 → Nat) a + S128x36.size a ≤ S128x2016.size a
  h_S128x36 : 0 < S128x36.numel
  slices_S128x64x64_o0_28_29_S128x1x35 : S128x64x64.Slices ![0, 28, 29] S128x1x35
  shapeCasts_S128x1x35_S128x35 : S128x1x35.ShapeCasts S128x35
  inb_S128x2016_S128x35_0_1386 : ∀ a, (![0, 1386] : Fin 2 → Nat) a + S128x35.size a ≤ S128x2016.size a
  h_S128x35 : 0 < S128x35.numel
  slices_S128x64x64_o0_29_30_S128x1x34 : S128x64x64.Slices ![0, 29, 30] S128x1x34
  shapeCasts_S128x1x34_S128x34 : S128x1x34.ShapeCasts S128x34
  inb_S128x2016_S128x34_0_1421 : ∀ a, (![0, 1421] : Fin 2 → Nat) a + S128x34.size a ≤ S128x2016.size a
  h_S128x34 : 0 < S128x34.numel
  slices_S128x64x64_o0_30_31_S128x1x33 : S128x64x64.Slices ![0, 30, 31] S128x1x33
  shapeCasts_S128x1x33_S128x33 : S128x1x33.ShapeCasts S128x33
  inb_S128x2016_S128x33_0_1455 : ∀ a, (![0, 1455] : Fin 2 → Nat) a + S128x33.size a ≤ S128x2016.size a
  h_S128x33 : 0 < S128x33.numel
  slices_S128x64x64_o0_31_32_S128x1x32 : S128x64x64.Slices ![0, 31, 32] S128x1x32
  shapeCasts_S128x1x32_S128x32 : S128x1x32.ShapeCasts S128x32
  inb_S128x2016_S128x32_0_1488 : ∀ a, (![0, 1488] : Fin 2 → Nat) a + S128x32.size a ≤ S128x2016.size a
  h_S128x32 : 0 < S128x32.numel
  slices_S128x64x64_o0_32_33_S128x1x31 : S128x64x64.Slices ![0, 32, 33] S128x1x31
  shapeCasts_S128x1x31_S128x31 : S128x1x31.ShapeCasts S128x31
  inb_S128x2016_S128x31_0_1520 : ∀ a, (![0, 1520] : Fin 2 → Nat) a + S128x31.size a ≤ S128x2016.size a
  h_S128x31 : 0 < S128x31.numel
  slices_S128x64x64_o0_33_34_S128x1x30 : S128x64x64.Slices ![0, 33, 34] S128x1x30
  shapeCasts_S128x1x30_S128x30 : S128x1x30.ShapeCasts S128x30
  inb_S128x2016_S128x30_0_1551 : ∀ a, (![0, 1551] : Fin 2 → Nat) a + S128x30.size a ≤ S128x2016.size a
  h_S128x30 : 0 < S128x30.numel
  slices_S128x64x64_o0_34_35_S128x1x29 : S128x64x64.Slices ![0, 34, 35] S128x1x29
  shapeCasts_S128x1x29_S128x29 : S128x1x29.ShapeCasts S128x29
  inb_S128x2016_S128x29_0_1581 : ∀ a, (![0, 1581] : Fin 2 → Nat) a + S128x29.size a ≤ S128x2016.size a
  h_S128x29 : 0 < S128x29.numel
  slices_S128x64x64_o0_35_36_S128x1x28 : S128x64x64.Slices ![0, 35, 36] S128x1x28
  shapeCasts_S128x1x28_S128x28 : S128x1x28.ShapeCasts S128x28
  inb_S128x2016_S128x28_0_1610 : ∀ a, (![0, 1610] : Fin 2 → Nat) a + S128x28.size a ≤ S128x2016.size a
  h_S128x28 : 0 < S128x28.numel
  slices_S128x64x64_o0_36_37_S128x1x27 : S128x64x64.Slices ![0, 36, 37] S128x1x27
  shapeCasts_S128x1x27_S128x27 : S128x1x27.ShapeCasts S128x27
  inb_S128x2016_S128x27_0_1638 : ∀ a, (![0, 1638] : Fin 2 → Nat) a + S128x27.size a ≤ S128x2016.size a
  h_S128x27 : 0 < S128x27.numel
  slices_S128x64x64_o0_37_38_S128x1x26 : S128x64x64.Slices ![0, 37, 38] S128x1x26
  shapeCasts_S128x1x26_S128x26 : S128x1x26.ShapeCasts S128x26
  inb_S128x2016_S128x26_0_1665 : ∀ a, (![0, 1665] : Fin 2 → Nat) a + S128x26.size a ≤ S128x2016.size a
  h_S128x26 : 0 < S128x26.numel
  slices_S128x64x64_o0_38_39_S128x1x25 : S128x64x64.Slices ![0, 38, 39] S128x1x25
  shapeCasts_S128x1x25_S128x25 : S128x1x25.ShapeCasts S128x25
  inb_S128x2016_S128x25_0_1691 : ∀ a, (![0, 1691] : Fin 2 → Nat) a + S128x25.size a ≤ S128x2016.size a
  h_S128x25 : 0 < S128x25.numel
  slices_S128x64x64_o0_39_40_S128x1x24 : S128x64x64.Slices ![0, 39, 40] S128x1x24
  shapeCasts_S128x1x24_S128x24 : S128x1x24.ShapeCasts S128x24
  inb_S128x2016_S128x24_0_1716 : ∀ a, (![0, 1716] : Fin 2 → Nat) a + S128x24.size a ≤ S128x2016.size a
  h_S128x24 : 0 < S128x24.numel
  slices_S128x64x64_o0_40_41_S128x1x23 : S128x64x64.Slices ![0, 40, 41] S128x1x23
  shapeCasts_S128x1x23_S128x23 : S128x1x23.ShapeCasts S128x23
  inb_S128x2016_S128x23_0_1740 : ∀ a, (![0, 1740] : Fin 2 → Nat) a + S128x23.size a ≤ S128x2016.size a
  h_S128x23 : 0 < S128x23.numel
  slices_S128x64x64_o0_41_42_S128x1x22 : S128x64x64.Slices ![0, 41, 42] S128x1x22
  shapeCasts_S128x1x22_S128x22 : S128x1x22.ShapeCasts S128x22
  inb_S128x2016_S128x22_0_1763 : ∀ a, (![0, 1763] : Fin 2 → Nat) a + S128x22.size a ≤ S128x2016.size a
  h_S128x22 : 0 < S128x22.numel
  slices_S128x64x64_o0_42_43_S128x1x21 : S128x64x64.Slices ![0, 42, 43] S128x1x21
  shapeCasts_S128x1x21_S128x21 : S128x1x21.ShapeCasts S128x21
  inb_S128x2016_S128x21_0_1785 : ∀ a, (![0, 1785] : Fin 2 → Nat) a + S128x21.size a ≤ S128x2016.size a
  h_S128x21 : 0 < S128x21.numel
  slices_S128x64x64_o0_43_44_S128x1x20 : S128x64x64.Slices ![0, 43, 44] S128x1x20
  shapeCasts_S128x1x20_S128x20 : S128x1x20.ShapeCasts S128x20
  inb_S128x2016_S128x20_0_1806 : ∀ a, (![0, 1806] : Fin 2 → Nat) a + S128x20.size a ≤ S128x2016.size a
  h_S128x20 : 0 < S128x20.numel
  slices_S128x64x64_o0_44_45_S128x1x19 : S128x64x64.Slices ![0, 44, 45] S128x1x19
  shapeCasts_S128x1x19_S128x19 : S128x1x19.ShapeCasts S128x19
  inb_S128x2016_S128x19_0_1826 : ∀ a, (![0, 1826] : Fin 2 → Nat) a + S128x19.size a ≤ S128x2016.size a
  h_S128x19 : 0 < S128x19.numel
  slices_S128x64x64_o0_45_46_S128x1x18 : S128x64x64.Slices ![0, 45, 46] S128x1x18
  shapeCasts_S128x1x18_S128x18 : S128x1x18.ShapeCasts S128x18
  inb_S128x2016_S128x18_0_1845 : ∀ a, (![0, 1845] : Fin 2 → Nat) a + S128x18.size a ≤ S128x2016.size a
  h_S128x18 : 0 < S128x18.numel
  slices_S128x64x64_o0_46_47_S128x1x17 : S128x64x64.Slices ![0, 46, 47] S128x1x17
  shapeCasts_S128x1x17_S128x17 : S128x1x17.ShapeCasts S128x17
  inb_S128x2016_S128x17_0_1863 : ∀ a, (![0, 1863] : Fin 2 → Nat) a + S128x17.size a ≤ S128x2016.size a
  h_S128x17 : 0 < S128x17.numel
  slices_S128x64x64_o0_47_48_S128x1x16 : S128x64x64.Slices ![0, 47, 48] S128x1x16
  shapeCasts_S128x1x16_S128x16 : S128x1x16.ShapeCasts S128x16
  inb_S128x2016_S128x16_0_1880 : ∀ a, (![0, 1880] : Fin 2 → Nat) a + S128x16.size a ≤ S128x2016.size a
  h_S128x16 : 0 < S128x16.numel
  slices_S128x64x64_o0_48_49_S128x1x15 : S128x64x64.Slices ![0, 48, 49] S128x1x15
  shapeCasts_S128x1x15_S128x15 : S128x1x15.ShapeCasts S128x15
  inb_S128x2016_S128x15_0_1896 : ∀ a, (![0, 1896] : Fin 2 → Nat) a + S128x15.size a ≤ S128x2016.size a
  h_S128x15 : 0 < S128x15.numel
  slices_S128x64x64_o0_49_50_S128x1x14 : S128x64x64.Slices ![0, 49, 50] S128x1x14
  shapeCasts_S128x1x14_S128x14 : S128x1x14.ShapeCasts S128x14
  inb_S128x2016_S128x14_0_1911 : ∀ a, (![0, 1911] : Fin 2 → Nat) a + S128x14.size a ≤ S128x2016.size a
  h_S128x14 : 0 < S128x14.numel
  slices_S128x64x64_o0_50_51_S128x1x13 : S128x64x64.Slices ![0, 50, 51] S128x1x13
  shapeCasts_S128x1x13_S128x13 : S128x1x13.ShapeCasts S128x13
  inb_S128x2016_S128x13_0_1925 : ∀ a, (![0, 1925] : Fin 2 → Nat) a + S128x13.size a ≤ S128x2016.size a
  h_S128x13 : 0 < S128x13.numel
  slices_S128x64x64_o0_51_52_S128x1x12 : S128x64x64.Slices ![0, 51, 52] S128x1x12
  shapeCasts_S128x1x12_S128x12 : S128x1x12.ShapeCasts S128x12
  inb_S128x2016_S128x12_0_1938 : ∀ a, (![0, 1938] : Fin 2 → Nat) a + S128x12.size a ≤ S128x2016.size a
  h_S128x12 : 0 < S128x12.numel
  slices_S128x64x64_o0_52_53_S128x1x11 : S128x64x64.Slices ![0, 52, 53] S128x1x11
  shapeCasts_S128x1x11_S128x11 : S128x1x11.ShapeCasts S128x11
  inb_S128x2016_S128x11_0_1950 : ∀ a, (![0, 1950] : Fin 2 → Nat) a + S128x11.size a ≤ S128x2016.size a
  h_S128x11 : 0 < S128x11.numel
  slices_S128x64x64_o0_53_54_S128x1x10 : S128x64x64.Slices ![0, 53, 54] S128x1x10
  shapeCasts_S128x1x10_S128x10 : S128x1x10.ShapeCasts S128x10
  inb_S128x2016_S128x10_0_1961 : ∀ a, (![0, 1961] : Fin 2 → Nat) a + S128x10.size a ≤ S128x2016.size a
  h_S128x10 : 0 < S128x10.numel
  slices_S128x64x64_o0_54_55_S128x1x9 : S128x64x64.Slices ![0, 54, 55] S128x1x9
  shapeCasts_S128x1x9_S128x9 : S128x1x9.ShapeCasts S128x9
  inb_S128x2016_S128x9_0_1971 : ∀ a, (![0, 1971] : Fin 2 → Nat) a + S128x9.size a ≤ S128x2016.size a
  h_S128x9 : 0 < S128x9.numel
  slices_S128x64x64_o0_55_56_S128x1x8 : S128x64x64.Slices ![0, 55, 56] S128x1x8
  shapeCasts_S128x1x8_S128x8 : S128x1x8.ShapeCasts S128x8
  inb_S128x2016_S128x8_0_1980 : ∀ a, (![0, 1980] : Fin 2 → Nat) a + S128x8.size a ≤ S128x2016.size a
  h_S128x8 : 0 < S128x8.numel
  slices_S128x64x64_o0_56_57_S128x1x7 : S128x64x64.Slices ![0, 56, 57] S128x1x7
  shapeCasts_S128x1x7_S128x7 : S128x1x7.ShapeCasts S128x7
  inb_S128x2016_S128x7_0_1988 : ∀ a, (![0, 1988] : Fin 2 → Nat) a + S128x7.size a ≤ S128x2016.size a
  h_S128x7 : 0 < S128x7.numel
  slices_S128x64x64_o0_57_58_S128x1x6 : S128x64x64.Slices ![0, 57, 58] S128x1x6
  shapeCasts_S128x1x6_S128x6 : S128x1x6.ShapeCasts S128x6
  inb_S128x2016_S128x6_0_1995 : ∀ a, (![0, 1995] : Fin 2 → Nat) a + S128x6.size a ≤ S128x2016.size a
  h_S128x6 : 0 < S128x6.numel
  slices_S128x64x64_o0_58_59_S128x1x5 : S128x64x64.Slices ![0, 58, 59] S128x1x5
  shapeCasts_S128x1x5_S128x5 : S128x1x5.ShapeCasts S128x5
  inb_S128x2016_S128x5_0_2001 : ∀ a, (![0, 2001] : Fin 2 → Nat) a + S128x5.size a ≤ S128x2016.size a
  h_S128x5 : 0 < S128x5.numel
  slices_S128x64x64_o0_59_60_S128x1x4 : S128x64x64.Slices ![0, 59, 60] S128x1x4
  shapeCasts_S128x1x4_S128x4 : S128x1x4.ShapeCasts S128x4
  inb_S128x2016_S128x4_0_2006 : ∀ a, (![0, 2006] : Fin 2 → Nat) a + S128x4.size a ≤ S128x2016.size a
  h_S128x4 : 0 < S128x4.numel
  slices_S128x64x64_o0_60_61_S128x1x3 : S128x64x64.Slices ![0, 60, 61] S128x1x3
  shapeCasts_S128x1x3_S128x3 : S128x1x3.ShapeCasts S128x3
  inb_S128x2016_S128x3_0_2010 : ∀ a, (![0, 2010] : Fin 2 → Nat) a + S128x3.size a ≤ S128x2016.size a
  h_S128x3 : 0 < S128x3.numel
  slices_S128x64x64_o0_61_62_S128x1x2 : S128x64x64.Slices ![0, 61, 62] S128x1x2
  shapeCasts_S128x1x2_S128x2 : S128x1x2.ShapeCasts S128x2
  inb_S128x2016_S128x2_0_2013 : ∀ a, (![0, 2013] : Fin 2 → Nat) a + S128x2.size a ≤ S128x2016.size a
  h_S128x2 : 0 < S128x2.numel
  slices_S128x64x64_o0_62_63_S128x1x1 : S128x64x64.Slices ![0, 62, 63] S128x1x1
  shapeCasts_S128x1x1_S128x1 : S128x1x1.ShapeCasts S128x1
  inb_S128x2016_S128x1_0_2015 : ∀ a, (![0, 2015] : Fin 2 → Nat) a + S128x1.size a ≤ S128x2016.size a
  h_S128x1 : 0 < S128x1.numel
  dot_S128x64x128_S128x64x128_S128x64x64_2_2_1_1_0_0_wf : DotDims.WF S128x64x128 S128x64x128 S128x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S16384x64x128.size a
  hwx0_0 : ∀ i : grid0.Coords, EltTy.bits .f32 = 32 ∨ (Rect.block (s := S16384x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2016.size a ≤ S16384x2016.size a
  hwx0_1 : ∀ i : grid0.Coords, EltTy.bits .f32 = 32 ∨ (Rect.block (s := S16384x2016) S128x2016.size (cc0_transform_1 i) (hinb0_1 i)).WholeWords (EltTy.packing .f32)

variable [Facts₀]

def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x64x128 : Shape := ⟨3, ![16384, 64, 128]⟩
abbrev S16384x64x64 : Shape := ⟨3, ![16384, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S16384x2016 : Shape := ⟨2, ![16384, 2016]⟩

abbrev nBuf : Space → Nat
  | .hbm => 137
  | .vmem => 0
  | .smem => 0
  | _ => 0

abbrev hbmTy0_0 (i : Nat) : BufTy := match i % 128 with
  | 0 => ⟨S16384x64x128, .f32⟩
  | 1 => ⟨S16384x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S16384x64x128, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S16384x2016, .f32⟩
  | _ => ⟨S16384x64x128, .f32⟩

abbrev hbmTy (i : Nat) : BufTy := match i / 128 with
  | 0 => hbmTy0_0 i
  | 1 => hbmTy0_1 i
  | _ => ⟨S16384x64x128, .f32⟩

abbrev bufTy : (tb : Table) → Fin (tcTables nBuf tb) → BufTy
  | .hbm, ⟨i, _⟩ => hbmTy i
  | _, _ => ⟨S16384x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S16384x64x128_S16384x64x128_S16384x64x64_2_2_1_1_0_0_wf : DotDims.WF S16384x64x128 S16384x64x128 S16384x64x64 [2] [2] [1] [1] [0] [0]
  scatter_S2016_S4096x1_S4096_n_0_0_1_wf : ScatterDims.WF S2016 S4096x1 S4096 [] [0] [0] 1
  gather_S16384x64x64_S2016x2_S16384x2016_0_12_n_n_12_1_1638411_wf : GatherDims.WF S16384x64x64 S2016x2 S16384x2016 [0] [1, 2] [] [1, 2] [] 1 ![16384, 1, 1]

variable [Facts₀]

def dot_S16384x64x128_S16384x64x128_S16384x64x64_2_2_1_1_0_0 : DotDims S16384x64x128 S16384x64x128 S16384x64x64 where
  lhsContracting := [2]
  rhsContracting := [2]
  lhsNonContracting := [1]
  rhsNonContracting := [1]
  lhsBatch := [0]
  rhsBatch := [0]
  wf := dot_S16384x64x128_S16384x64x128_S16384x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S16384x64x64_S2016x2_S16384x2016_0_12_n_n_12_1_1638411 : GatherDims S16384x64x64 S2016x2 S16384x2016 where
  offsetDims := [0]
  collapsedSliceDims := [1, 2]
  operandBatchingDims := []
  startIndicesBatchingDims := []
  startIndexMap := [1, 2]
  indexVectorDim := 1
  sliceSizes := ![16384, 1, 1]
  wf := gather_S16384x64x64_S2016x2_S16384x2016_0_12_n_n_12_1_1638411_wf

class Facts : Prop extends Facts₀ where

variable [Facts]
-- ==== Proof.LibColumnCover.lean ====
/-
  Pieces that cover a matrix column by column.

  A list of stores into an R × C buffer covers it when every column k < C lies in some store that is a unit-stride
  rectangle spanning all R rows: then (r, k) is in that store for every row r.  The test looks at the rectangles alone
  (offsets, sizes, strides: numerals in a kernel body's stores), never at what is stored, so it is decided by
  evaluation at a cost of one comparison per column and piece.
-/
import Idealize.ShloMosaic.Lib.Writes

namespace Idealize.ShloMosaic.View

variable {Val : EltTy → Type} {e : EltTy} {R C : ℕ}

/-- Whether piece `p` is a unit-stride rectangle over all `R` rows whose columns include `k`. -/
def Piece.spansCol (p : Piece Val ⟨2, ![R, C]⟩ e) (k : ℕ) : Bool :=
  decide (p.1.off 0 = 0 ∧ p.1.size 0 = R ∧ p.1.stride 0 = 1 ∧ p.1.stride 1 = 1 ∧ p.1.off 1 ≤ k ∧ k < p.1.off 1 + p.1.size 1)

/-- Whether every column below `n` lies in such a piece of `L`. -/
def Piece.colsCovered (L : List (Piece Val ⟨2, ![R, C]⟩ e)) : ℕ → Bool
  | 0 => true
  | n + 1 => (L.any fun p => p.spansCol n) && Piece.colsCovered L n

theorem Piece.colsCovered_spec (L : List (Piece Val ⟨2, ![R, C]⟩ e)) :
    ∀ n, Piece.colsCovered L n = true → ∀ k < n, ∃ p ∈ L, p.spansCol k = true
  | 0, _, k, hk => absurd hk (Nat.not_lt_zero k)
  | n + 1, h, k, hk => by
    simp only [Piece.colsCovered, Bool.and_eq_true, List.any_eq_true] at h
    rcases Nat.lt_succ_iff_lt_or_eq.mp hk with hk' | rfl
    · exact Piece.colsCovered_spec L n h.2 k hk'
    · exact h.1

/-- Pieces whose full-height rectangles meet every column cover the buffer. -/
theorem cover_of_colsCovered (L : List (Piece Val ⟨2, ![R, C]⟩ e)) (h : Piece.colsCovered L C = true) :
    ∀ y : (⟨2, ![R, C]⟩ : Shape).Idx, ∃ p ∈ L, y ∈ p.1.set := fun y => by
  obtain ⟨p, hp, hk⟩ := Piece.colsCovered_spec L C h (y 1).val (y 1).isLt
  simp only [Piece.spansCol, decide_eq_true_eq] at hk
  obtain ⟨h0, h1, h2, h3, h4, h5⟩ := hk
  refine ⟨p, hp, p.1.mem_set.mpr fun a => ?_⟩
  match a with
  | ⟨0, _⟩ =>
    show ∃ j < p.1.size 0, ((y 0 : Fin _) : ℕ) = p.1.off 0 + p.1.stride 0 * j
    refine ⟨(y 0).val, ?_, ?_⟩
    · rw [h1]; exact (y 0).isLt
    · rw [h0, h2]; omega
  | ⟨1, _⟩ =>
    show ∃ j < p.1.size 1, ((y 1 : Fin _) : ℕ) = p.1.off 1 + p.1.stride 1 * j
    refine ⟨(y 1).val - p.1.off 1, by omega, ?_⟩
    rw [h3]; omega

end Idealize.ShloMosaic.View
-- ==== Proof.Spec.lean ====
/-
  The upper triangle of a 64 × 64 matrix, row by row.

  The pairs (i, j) with i < j < 64, listed row by row (i ascending, then j ascending), are 2016 in number; row i
  holds 63 − i of them and starts at position off i = i (127 − i) / 2.  `rowOf k` and `colOf k` are the two
  members of the k-th pair.  The function both programs compute is the Gram entry of the k-th pair,
  G x (b, k) = Σ_d x (b, rowOf k, d) · x (b, colOf k, d).
-/
import Idealize.ShloMosaic.PureOps.Ideal.Laws
import Idealize.ShloMosaic.Lib.ValueIdx

noncomputable section

namespace Cert.Tri

open Idealize.ShloMosaic Idealize.ShloMosaic.ValueIdx

/-- How many pairs lie in the rows above row `i`: Σ_{i' < i} (63 − i'). -/
def off (i : ℕ) : ℕ := i * (127 - i) / 2

/-- The row of the k-th pair: the number of rows 1 … 62 that start at or before position k. -/
def rowOf (k : ℕ) : ℕ := ((List.range 62).filter fun i => decide (off (i + 1) ≤ k)).length

/-- The column of the k-th pair: its place inside its row, past the diagonal. -/
def colOf (k : ℕ) : ℕ := k - off (rowOf k) + rowOf k + 1

/-- Position `off i + t` is the t-th pair of row i: (i, i + 1 + t). -/
theorem row_piece : ∀ i < 63, ∀ t < 63 - i, rowOf (off i + t) = i ∧ colOf (off i + t) = i + 1 + t := by
  decide +kernel

/-- Every pair is strictly upper triangular and inside the matrix. -/
theorem pair_lt : ∀ k < 2016, rowOf k < colOf k ∧ colOf k < 64 := by
  decide +kernel

theorem rowOf_lt (k : Fin 2016) : rowOf k.val < 64 := by
  have := pair_lt k.val k.isLt; omega

theorem colOf_lt (k : Fin 2016) : colOf k.val < 64 := (pair_lt k.val k.isLt).2

/-- The two members of the k-th pair as matrix coordinates. -/
def rowF (k : Fin 2016) : Fin 64 := ⟨rowOf k.val, rowOf_lt k⟩
def colF (k : Fin 2016) : Fin 64 := ⟨colOf k.val, colOf_lt k⟩

/-- The Gram entry: the inner product of rows `i` and `j` of batch `b`, on the extended reals. -/
def gram (x : (⟨3, ![16384, 64, 128]⟩ : Shape).Idx → EReal) (b : Fin 16384) (i j : Fin 64) : EReal :=
  ∑ d : Fin 128, x (ix3 b i d) * x (ix3 b j d)

/-- What both programs leave in the result: at (b, k) the Gram entry of the k-th pair of the upper triangle. -/
def G (x : (⟨3, ![16384, 64, 128]⟩ : Shape).Idx → EReal) : (⟨2, ![16384, 2016]⟩ : Shape).Idx → EReal :=
  fun y => gram x (y 0) (rowF (y 1)) (colF (y 1))

theorem G_apply (x : (⟨3, ![16384, 64, 128]⟩ : Shape).Idx → EReal) (b : Fin 16384) (k : Fin 2016) :
    G x (ix2 b k) = gram x b (rowF k) (colF k) := rfl

end Cert.Tri

end
-- ==== Proof.LibBatchGram.lean ====
/-
  A batched product of a matrix with its own transpose, and a gather of matrix entries at a list of pairs.

  (1) For the dimension numbers ⟨[2], [2], [1], [1], [0], [0]⟩ over B×M×K and B×N×K operands (one batch axis, both
  operands contracted on their last axis), the product read at entry (b, p, q) is Σ_k lhs (b, p, k) · rhs (b, q, k) on the
  extended reals, for a kernel's matmul into the zero array and for the host's dot_general alike.
  (2) A gather from a B×R×C array with a K×2 table of (row, column) pairs — offset axis 0, the two matrix axes collapsed,
  whole batch slices — reads at (b, k) the entry (b, row k, column k), when the table's words are in range.
  Both generic in the extents.
-/
import Idealize.ShloMosaic.PureOps.Ideal.Laws
import Idealize.ShloMosaic.Lib.ValueIdx
import Idealize.ShloMosaic.Lib.StableHlo.Predicate

namespace Idealize.ShloMosaic.BatchGram

open Idealize.ShloMosaic Idealize.ShloMosaic.ValueIdx

/-- Two reads of a multi-index at positions with equal values agree in value. -/
theorem idx_val_congr {s : Shape} (j : s.Idx) (p q : Nat) (hp : p < s.rank) (hq : q < s.rank) (h : p = q) :
    (j ⟨p, hp⟩).val = (j ⟨q, hq⟩).val := by subst h; rfl

/-- On the one left batch axis the left index reads the result's axis 0. -/
theorem lhsIdx_val_batch {sl sr so : Shape} (d : DotDims sl sr so) {a : Fin sl.rank} (hb : d.lhsBatch = [a])
    (j : so.Idx) (k : d.contr.Idx) (h0 : 0 < so.rank) : (d.lhsIdx j k a).val = (j ⟨0, h0⟩).val := by
  have hmem : a ∈ d.lhsBatch := by rw [hb]; exact List.mem_singleton.mpr rfl
  unfold DotDims.lhsIdx
  rw [dif_pos hmem]
  simp only [Fin.val_cast]
  exact idx_val_congr j _ _ _ _ (by simp [hb])

/-- On the one right batch axis the right index reads the result's axis 0. -/
theorem rhsIdx_val_batch {sl sr so : Shape} (d : DotDims sl sr so) {a : Fin sr.rank} (hb : d.rhsBatch = [a])
    (j : so.Idx) (k : d.contr.Idx) (h0 : 0 < so.rank) : (d.rhsIdx j k a).val = (j ⟨0, h0⟩).val := by
  have hmem : a ∈ d.rhsBatch := by rw [hb]; exact List.mem_singleton.mpr rfl
  unfold DotDims.rhsIdx
  rw [dif_pos hmem]
  simp only [Fin.val_cast]
  exact idx_val_congr j _ _ _ _ (by simp [hb])

/-- A left non-contracting axis is not a left batch axis. -/
theorem not_mem_lhsBatch_of_mem_non {sl sr so : Shape} (d : DotDims sl sr so) {a : Fin sl.rank}
    (h : a ∈ d.lhsNonContracting) : a ∉ d.lhsBatch :=
  fun hb => (List.disjoint_of_nodup_append (List.Nodup.of_append_left d.lhs_nodup)) hb h

/-- A right non-contracting axis is not a right batch axis. -/
theorem not_mem_rhsBatch_of_mem_non {sl sr so : Shape} (d : DotDims sl sr so) {a : Fin sr.rank}
    (h : a ∈ d.rhsNonContracting) : a ∉ d.rhsBatch :=
  fun hb => (List.disjoint_of_nodup_append (List.Nodup.of_append_left d.rhs_nodup)) hb h

/-- With one left batch axis, on the one left non-contracting axis the left index reads the result's axis 1. -/
theorem lhsIdx_val_non {sl sr so : Shape} (d : DotDims sl sr so) {a₀ a : Fin sl.rank} (hb : d.lhsBatch = [a₀])
    (hn : d.lhsNonContracting = [a]) (j : so.Idx) (k : d.contr.Idx) (h1 : 1 < so.rank) :
    (d.lhsIdx j k a).val = (j ⟨1, h1⟩).val := by
  have hmem : a ∈ d.lhsNonContracting := by rw [hn]; exact List.mem_singleton.mpr rfl
  unfold DotDims.lhsIdx
  rw [dif_neg (not_mem_lhsBatch_of_mem_non d hmem), dif_pos hmem]
  simp only [Fin.val_cast]
  exact idx_val_congr j _ _ _ _ (by simp [hb, hn])

/-- With one left batch and one left non-contracting axis, on the one right non-contracting axis the right index reads
    the result's axis 2. -/
theorem rhsIdx_val_non {sl sr so : Shape} (d : DotDims sl sr so) {a₀ a₁ : Fin sl.rank} {a : Fin sr.rank}
    (hb : d.lhsBatch = [a₀]) (hln : d.lhsNonContracting = [a₁])
    (hn : d.rhsNonContracting = [a]) (j : so.Idx) (k : d.contr.Idx) (h2 : 2 < so.rank) :
    (d.rhsIdx j k a).val = (j ⟨2, h2⟩).val := by
  have hmem : a ∈ d.rhsNonContracting := by rw [hn]; exact List.mem_singleton.mpr rfl
  unfold DotDims.rhsIdx
  rw [dif_neg (not_mem_rhsBatch_of_mem_non d hmem), dif_pos hmem]
  simp only [Fin.val_cast]
  exact idx_val_congr j _ _ _ _ (by simp [hb, hln, hn])

/-- A 32-bit word holding a natural below 2^31, read as a signed integer, is that natural. -/
theorem toInt_toNat_ofNat32 (n : ℕ) (h : n < 2 ^ 31) : (BitVec.ofNat 32 n).toInt.toNat = n := by
  have h1 : (BitVec.ofNat 32 n).toNat = n := by rw [BitVec.toNat_ofNat]; exact Nat.mod_eq_of_lt (by omega)
  rw [BitVec.toInt_eq_toNat_of_lt (by rw [h1]; omega), h1]
  rfl

/-- The pair gather's dimension numbers, as a literal record over the extents. -/
abbrev pairDims (B R C K : ℕ)
    (wf : GatherDims.WF ⟨3, ![B, R, C]⟩ ⟨2, ![K, 2]⟩ ⟨2, ![B, K]⟩ [0] [1, 2] [] [1, 2] [] 1 ![B, 1, 1]) :
    GatherDims ⟨3, ![B, R, C]⟩ ⟨2, ![K, 2]⟩ ⟨2, ![B, K]⟩ where
  offsetDims := [0]
  collapsedSliceDims := [1, 2]
  operandBatchingDims := []
  startIndicesBatchingDims := []
  startIndexMap := [1, 2]
  indexVectorDim := 1
  sliceSizes := ![B, 1, 1]
  wf := wf

/-- A record with those seven fields is that literal record. -/
theorem eq_pairDims {B R C K : ℕ} (d : GatherDims ⟨3, ![B, R, C]⟩ ⟨2, ![K, 2]⟩ ⟨2, ![B, K]⟩)
    (h1 : d.offsetDims = [0]) (h2 : d.collapsedSliceDims = [1, 2]) (h3 : d.operandBatchingDims = [])
    (h4 : d.startIndicesBatchingDims = []) (h5 : d.startIndexMap = [1, 2]) (h6 : d.indexVectorDim = 1)
    (h7 : d.sliceSizes = ![B, 1, 1]) : ∃ wf, d = pairDims B R C K wf := by
  obtain ⟨od, cd, ob, sb, sm, iv, ss, wf⟩ := d
  cases h1; cases h2; cases h3; cases h4; cases h5; cases h6; cases h7
  exact ⟨wf, rfl⟩

/-- The start-indices index at which result index (b, k) reads component `c` of its start index is (k, c). -/
theorem pairDims_siIdx {B R C K : ℕ} (wf) (b : Fin B) (k : Fin K) (c : Fin 2) :
    (pairDims B R C K wf).siIdx (ix2 b k) c = ix2 k c := by
  funext a
  refine Fin.ext ?_
  match a with
  | ⟨0, _⟩ => rfl
  | ⟨1, _⟩ => rfl

/-- The contraction sum of the batched product at entry (b, p, q). -/
theorem contr_sum {B M N K : ℕ} (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (lhs : (⟨3, ![B, M, K]⟩ : Shape).Idx → EReal) (rhs : (⟨3, ![B, N, K]⟩ : Shape).Idx → EReal)
    (b : Fin B) (p : Fin M) (q : Fin N) :
    ∑ k : d.contr.Idx, lhs (d.lhsIdx (ix3 b p q) k) * rhs (d.rhsIdx (ix3 b p q) k)
      = ∑ k : Fin K, lhs (ix3 b p k) * rhs (ix3 b q k) := by
  have hr : d.contr.rank = 1 := by rw [d.rank_contr, hlc]; rfl
  have hs : d.contr.size ⟨0, by omega⟩ = K := by
    have := d.size_contr 0 (by rw [hlc]; exact Nat.one_pos)
    rw [this]; simp [hlc]
  rw [← Equiv.sum_comp (contrEquiv1 d K hr hs).symm]
  refine Finset.sum_congr rfl fun k _ => ?_
  have hL : d.lhsIdx (ix3 b p q) ((contrEquiv1 d K hr hs).symm k) = ix3 b p k := by
    funext a
    refine Fin.ext ?_
    match a with
    | ⟨0, _⟩ => exact lhsIdx_val_batch d hlb _ _ (show (0 : ℕ) < 3 by omega)
    | ⟨1, _⟩ => exact lhsIdx_val_non d hlb hln _ _ (show (1 : ℕ) < 3 by omega)
    | ⟨2, _⟩ => exact (d.lhsIdx_val_of_single hlc _ _).trans (contrEquiv1_symm_val d K hr hs k)
  have hR : d.rhsIdx (ix3 b p q) ((contrEquiv1 d K hr hs).symm k) = ix3 b q k := by
    funext a
    refine Fin.ext ?_
    match a with
    | ⟨0, _⟩ => exact rhsIdx_val_batch d hrb _ _ (show (0 : ℕ) < 3 by omega)
    | ⟨1, _⟩ => exact rhsIdx_val_non d hlb hln hrn _ _ (show (2 : ℕ) < 3 by omega)
    | ⟨2, _⟩ => exact (d.rhsIdx_val_of_single hrc _ _).trans (contrEquiv1_symm_val d K hr hs k)
  rw [hL, hR]

/-- A kernel's batched matmul into the zero array, at entry (b, p, q). -/
theorem matmul_zero_apply {φ₁ φ₂ : FTy} {B M N K : ℕ} (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision)
    (lhs : FVec Ideal ⟨3, ![B, M, K]⟩ φ₁) (rhs : FVec Ideal ⟨3, ![B, N, K]⟩ φ₂) (b : Fin B) (p : Fin M) (q : Fin N) :
    FloatOps.matmul d prec lhs rhs (constant ⟨3, ![B, M, N]⟩ .f32 0x00000000#32) (ix3 b p q)
      = ∑ k : Fin K, lhs (ix3 b p k) * rhs (ix3 b q k) := by
  rw [Ideal.matmul_constant_zero_apply]
  exact contr_sum d hlc hrc hln hrn hlb hrb lhs rhs b p q

/-- The host's batched dot_general, at entry (b, p, q). -/
theorem dotGeneral_apply {φ₁ φ₂ : FTy} {B M N K : ℕ} (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision) (sched : HostSchedule)
    (lhs : FVec Ideal ⟨3, ![B, M, K]⟩ φ₁) (rhs : FVec Ideal ⟨3, ![B, N, K]⟩ φ₂) (b : Fin B) (p : Fin M) (q : Fin N) :
    FloatOps.dotGeneral d prec sched lhs rhs (ix3 b p q) = ∑ k : Fin K, lhs (ix3 b p k) * rhs (ix3 b q k) := by
  rw [Ideal.dotGeneral_apply]
  exact contr_sum d hlc hrc hln hrn hlb hrb lhs rhs b p q

/-- A gather of matrix entries at a table of (row, column) pairs. -/
theorem gather_pair_apply {α : Type} {B R C K : ℕ} (d : GatherDims ⟨3, ![B, R, C]⟩ ⟨2, ![K, 2]⟩ ⟨2, ![B, K]⟩)
    (h1 : d.offsetDims = [0]) (h2 : d.collapsedSliceDims = [1, 2]) (h3 : d.operandBatchingDims = [])
    (h4 : d.startIndicesBatchingDims = []) (h5 : d.startIndexMap = [1, 2]) (h6 : d.indexVectorDim = 1)
    (h7 : d.sliceSizes = ![B, 1, 1])
    (x : (⟨3, ![B, R, C]⟩ : Shape).Idx → α) (idx : IVec ⟨2, ![K, 2]⟩ 32)
    (r : Fin K → Fin R) (c : Fin K → Fin C)
    (hr : ∀ k, idx (ix2 k 0) = BitVec.ofNat 32 (r k).val) (hc : ∀ k, idx (ix2 k 1) = BitVec.ofNat 32 (c k).val)
    (hR : R < 2 ^ 31) (hC : C < 2 ^ 31) (b : Fin B) (k : Fin K) :
    Host.gather d x idx (ix2 b k) = x (ix3 b (r k) (c k)) := by
  obtain ⟨wf, rfl⟩ := eq_pairDims d h1 h2 h3 h4 h5 h6 h7
  unfold Host.gather
  congr 1
  funext a
  refine Fin.ext ?_
  match a with
  | ⟨0, _⟩ =>
    show (pairDims B R C K wf).start (ix2 b k) idx 0 + (pairDims B R C K wf).batchCoord (ix2 b k) 0
      + (pairDims B R C K wf).offCoord (ix2 b k) 0 = b.val
    rw [show (pairDims B R C K wf).start (ix2 b k) idx 0 = 0 from rfl,
      show (pairDims B R C K wf).batchCoord (ix2 b k) 0 = 0 from rfl,
      show (pairDims B R C K wf).offCoord (ix2 b k) 0 = b.val from rfl]
    omega
  | ⟨1, _⟩ =>
    show (pairDims B R C K wf).start (ix2 b k) idx 1 + (pairDims B R C K wf).batchCoord (ix2 b k) 1
      + (pairDims B R C K wf).offCoord (ix2 b k) 1 = (r k).val
    rw [show (pairDims B R C K wf).batchCoord (ix2 b k) 1 = 0 from rfl,
      show (pairDims B R C K wf).offCoord (ix2 b k) 1 = 0 from rfl,
      show (pairDims B R C K wf).start (ix2 b k) idx 1
        = min (idx ((pairDims B R C K wf).siIdx (ix2 b k) (0 : Fin 2))).toInt.toNat (R - 1) from rfl,
      pairDims_siIdx, hr, toInt_toNat_ofNat32 _ (by have := (r k).isLt; omega)]
    have := (r k).isLt
    omega
  | ⟨2, _⟩ =>
    show (pairDims B R C K wf).start (ix2 b k) idx 2 + (pairDims B R C K wf).batchCoord (ix2 b k) 2
      + (pairDims B R C K wf).offCoord (ix2 b k) 2 = (c k).val
    rw [show (pairDims B R C K wf).batchCoord (ix2 b k) 2 = 0 from rfl,
      show (pairDims B R C K wf).offCoord (ix2 b k) 2 = 0 from rfl,
      show (pairDims B R C K wf).start (ix2 b k) idx 2
        = min (idx ((pairDims B R C K wf).siIdx (ix2 b k) (1 : Fin 2))).toInt.toNat (C - 1) from rfl,
      pairDims_siIdx, hc, toInt_toNat_ofNat32 _ (by have := (c k).isLt; omega)]
    have := (c k).isLt
    omega

end Idealize.ShloMosaic.BatchGram
-- ==== Proof.KernelPay.lean ====
/-
  The kernel body's payloads.

  Per grid point the body forms the Gram matrices of its 128 × 64 × 128 input block (a batched product with the block's own
  transpose, the bf16 truncation being the identity on the extended reals), and stores, for each row i < 63, the slice
  gram (·, i, i+1 … 63) as columns off i … off i + 62 − i of its 128 × 2016 output block.  So every store is a block of
  ONE function of the output block's index: at (r, k) the Gram entry of batch row r at the k-th pair of the upper triangle.
-/
import proofs.«159498_j15745350107452_1_alg».proof.Proof.Gen.KernelIdeal.Skeleton
import proofs.«159498_j15745350107452_1_alg».proof.Proof.Spec
import proofs.«159498_j15745350107452_1_alg».proof.Proof.LibBatchGram
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.Tri

/-- What a grid point leaves in its output block, as one function of the input block `x0`: at (r, k) the inner product of
    rows `rowOf k` and `colOf k` of batch row r. -/
def Gblk (x0 : (⟨3, ![128, 64, 128]⟩ : Shape).Idx → EReal) : (⟨2, ![128, 2016]⟩ : Shape).Idx → EReal :=
  fun y => ∑ d : Fin 128, x0 (ix3 (y 0) (rowF (y 1)) d) * x0 (ix3 (y 0) (colF (y 1)) d)

/-- `Gblk` at an index whose coordinates are r and `off i + t`: the Gram entry of rows i and i + 1 + t of batch row r,
    since position `off i + t` is the t-th pair of row i. -/
theorem Gblk_at (x0 : (⟨3, ![128, 64, 128]⟩ : Shape).Idx → EReal) (i : ℕ) (hi : i < 63) (t : ℕ) (ht : t < 63 - i)
    (r : Fin 128) (y : (⟨2, ![128, 2016]⟩ : Shape).Idx) (h0 : (y 0).val = r.val) (h1 : (y 1).val = off i + t) :
    Gblk x0 y = ∑ d : Fin 128, x0 (ix3 r ⟨i, by omega⟩ d) * x0 (ix3 r ⟨i + 1 + t, by omega⟩ d) := by
  have hr : y 0 = r := Fin.ext h0
  have hrow : rowF (y 1) = ⟨i, by omega⟩ := Fin.ext (by
    show rowOf (y 1).val = i
    rw [h1]; exact (row_piece i hi t ht).1)
  have hcol : colF (y 1) = ⟨i + 1 + t, by omega⟩ := Fin.ext (by
    show colOf (y 1).val = i + 1 + t
    rw [h1]; exact (row_piece i hi t ht).2)
  unfold Gblk
  rw [hr, hrow, hcol]

/-- A row slice of a 128 × 64 × 64 array laid out as a matrix: entry (r, t) is entry (r, i, j + t) of the array. -/
theorem rowSlice_apply {α : Type} {n : ℕ} (i j : ℕ) (hi : i < 64) (hj : j + n ≤ 64)
    (v : (⟨3, ![128, 64, 64]⟩ : Shape).Idx → α)
    (hs : (⟨3, ![128, 64, 64]⟩ : Shape).Slices ![0, i, j] ⟨3, ![128, 1, n]⟩)
    (hc : (⟨3, ![128, 1, n]⟩ : Shape).ShapeCasts ⟨2, ![128, n]⟩) (r : Fin 128) (t : Fin n) :
    shapeCast ⟨2, ![128, n]⟩ (extractStridedSlice ⟨3, ![128, 1, n]⟩ ![0, i, j] v hs) hc (ix2 r t)
      = v (ix3 r ⟨i, hi⟩ ⟨j + t.val, by omega⟩) := by
  -- the cast keeps the row-major position: (r, t) of 128 × n sits where (r, 0, t) of 128 × 1 × n does
  refine (shapeCast_apply _ hc (ix2 r t) (ix3 r (0 : Fin 1) t) ?_).trans ?_
  · rw [Shape.rowMajor_val_three, Shape.rowMajor_val_two]
    show (r.val * 1 + 0) * n + t.val = r.val * n + t.val
    rw [Nat.mul_one, Nat.add_zero]
  -- the slice shifts each coordinate by its offset: (r, 0, t) reads (0 + r, i + 0, j + t)
  · refine extractStridedSlice_apply _ v hs _ _ fun a => ?_
    match a with
    | ⟨0, _⟩ => show r.val = 0 + r.val; omega
    | ⟨1, _⟩ => show i = i + 0; omega
    | ⟨2, _⟩ => show j + t.val = j + t.val; rfl

/-- The Gram payload at (r, i, j): the inner product of rows i and j of batch row r of the input block. -/
theorem pay7_apply (x0 : Vec Ideal S128x64x128 .f32) (r : Fin 128) (i j : Fin 64) :
    k0_pay7 (F := Ideal) x0 (ix3 r i j) = ∑ d : Fin 128, x0 (ix3 r i d) * x0 (ix3 r j d) := by
  -- the truncation is the identity on the extended reals and the last cast is onto the same shape; what is left is the
  -- batched product of the block with itself into the zero array
  unfold k0_pay7
  rw [shapeCast_self]
  exact Idealize.ShloMosaic.BatchGram.matmul_zero_apply dot_S128x64x128_S128x64x128_S128x64x64_2_2_1_1_0_0
    rfl rfl rfl rfl rfl rfl none _ _ r i j

/-- Row i's store is a block of `Gblk`: the slice of the Gram payload at row i, columns i+1 …, stored at columns
    `off i` …, agrees with `Gblk` at every index of its rectangle. -/
theorem piece_ok (i n o j : ℕ) (hi : i < 63) (hn : n = 63 - i) (ho : o = off i) (hj : j = i + 1)
    (x0 : Vec Ideal S128x64x128 .f32)
    (hs : (⟨3, ![128, 64, 64]⟩ : Shape).Slices ![0, i, j] ⟨3, ![128, 1, n]⟩)
    (hc : (⟨3, ![128, 1, n]⟩ : Shape).ShapeCasts ⟨2, ![128, n]⟩)
    (inb : ∀ a, (![0, o] : Fin 2 → ℕ) a + (![128, n] : Fin 2 → ℕ) a ≤ (⟨2, ![128, 2016]⟩ : Shape).size a)
    (x : (Rect.unit (s := ⟨2, ![128, 2016]⟩) ![0, o] ![128, n] inb).shape.Idx) :
    shapeCast ⟨2, ![128, n]⟩ (extractStridedSlice ⟨3, ![128, 1, n]⟩ ![0, i, j] (k0_pay7 (F := Ideal) x0) hs) hc x
      = Gblk x0 ((Rect.unit (s := ⟨2, ![128, 2016]⟩) ![0, o] ![128, n] inb).emb x) := by
  subst hn ho hj
  obtain ⟨r, t, rfl⟩ : ∃ (r : Fin 128) (t : Fin (63 - i)), x = ix2 r t := ⟨x 0, x 1, eq_ix2 x⟩
  -- left: entry (r, i, i + 1 + t) of the Gram payload
  rw [rowSlice_apply i (i + 1) (by omega) (by omega) _ hs hc r t, pay7_apply]
  -- right: the unit-stride rectangle places (r, t) at (0 + 1 · r, off i + 1 · t)
  refine (Gblk_at x0 i hi t.val t.isLt r _ ?_ ?_).symm
  · show 0 + 1 * r.val = r.val
    omega
  · show off i + 1 * t.val = off i + t.val
    omega

end Cert.KernelIdeal.Pay

end
-- ==== Proof.KernelBlock.lean ====
/-
  What a grid point leaves in its output block.

  The body's 63 stores are blocks of one function of the output block's index (`Pay.Gblk` of the point's input block), and
  together they cover the block; so the block, read back, is that function.
-/
import proofs.«159498_j15745350107452_1_alg».proof.Proof.KernelIdealFrame
import proofs.«159498_j15745350107452_1_alg».proof.Proof.KernelPay

set_option maxRecDepth 16384

noncomputable section

namespace Cert.KernelIdeal.Blk

open Idealize.ShloMosaic Idealize.ShloMosaic.TcCoe Idealize.ShloMosaic.Tactic Idealize.ShloMosaic.ValueIdx Idealize.SL.Sem
open Cert.KernelIdeal Cert.KernelIdeal.Gen Cert.KernelIdeal.GenP

/-- The scratch is stored and loaded whole: its rectangle starts at the origin. -/
theorem hz3 : (![0, 0, 0] : Fin 3 → Nat) = fun _ => 0 := funext fun a => by fin_cases a <;> rfl

/-- The output block after the body, on any staging memrefs: `Gblk` of the input block. -/
theorem out0_eq (c : Dev nD) (i : grid0.Coords) (arg1 : Memref sig .tc .vmem S128x64x128 .f32) (harg1 : arg1.IsWhole)
    (arg2 : Memref sig .tc .vmem S128x2016 .f32) (harg2 : arg2.IsWhole) (arg3 : Memref sig .tc .vmem S128x64x64 .f32)
    (harg3 : arg3.IsWhole) (x0 : Vec Ideal S128x64x128 .f32) :
    out0_A_1 (F := Ideal) c i arg1 harg1 arg2 harg2 arg3 harg3 x0 = Pay.Gblk x0 := by
  unfold out0_A_1
  rw [View.read_writes_eq_canon _ _ _ (cover0_A_1 c i arg1 harg1 arg2 harg2 arg3 harg3 x0)]
  funext y
  refine View.canon_apply_of_pieces (Pay.Gblk x0) _ ?_ y (cover0_A_1 c i arg1 harg1 arg2 harg2 arg3 harg3 x0 y)
  -- the stores, as the run left them; the scratch read back is the Gram payload of the input block
  unfold kernelRun0_A
  dsimp only
  sl_unfold_run_names
  rw [View.readCov_unit_zero (S := S128x64x64) _ hz3]
  -- each store is row i's slice of the Gram payload at columns off i …: a block of `Gblk`
  simp only [View.readAt_eq_ld, harg1.read_unread, View.ld_unit_zero (S := S128x64x128) hz3]
  simp only [List.forall_mem_cons, List.forall_mem_nil, and_true]
  repeat' apply And.intro
  all_goals
    first
      | (intro x; exact Pay.piece_ok _ _ _ _ (by decide) (by decide) (by decide) (by decide) x0 _ _ _ x)
      | (intro p hp; cases hp)

end Cert.KernelIdeal.Blk

end
-- ==== Proof.KernelArr.lean ====
/-
  The kernel's result array.

  Grid point t reads rows 128 t … 128 t + 127 of the argument and writes rows 128 t … 128 t + 127 of the result, all 2016
  columns; what it writes is `Pay.Gblk` of its input block, which is the block of `Cert.Tri.G` of the whole argument at
  those rows; the 128 points' blocks cover the result; so after the run the result array is `G` of the argument.
-/
import proofs.«159498_j15745350107452_1_alg».proof.Proof.KernelIdealValue
import proofs.«159498_j15745350107452_1_alg».proof.Proof.KernelBlock

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.ValueP Cert.Tri

variable (m : (ℓ : Loc nD τ sig) → Buf (Elt Ideal) ℓ) (ρ : Dev nD → PrngReg)

/-- The index maps, decided over the grid's 128 points: point t's input block sits at block index (t, 0, 0) and its
    output block at block index (t, 0). -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0)

/-- Rows 128 t … 128 t + 127 of `G` of an array are `Pay.Gblk` of those rows of the array: when `x0` is the block of `x`
    at batch rows 128 t …, entry (r, k) of `Gblk x0` is entry (128 t + r, k) of `G x`.  Both are the inner product over
    d of rows `rowOf k` and `colOf k` of the same batch row. -/
theorem Gblk_eq_G (x : (⟨3, ![16384, 64, 128]⟩ : Shape).Idx → EReal) (x0 : (⟨3, ![128, 64, 128]⟩ : Shape).Idx → EReal)
    (t : ℕ)
    (hx : ∀ (y : (⟨3, ![128, 64, 128]⟩ : Shape).Idx) (k : (⟨3, ![16384, 64, 128]⟩ : Shape).Idx),
      (k 0).val = t * 128 + (y 0).val → (k 1).val = (y 1).val → (k 2).val = (y 2).val → x0 y = x k)
    (j : (⟨2, ![128, 2016]⟩ : Shape).Idx) (i : (⟨2, ![16384, 2016]⟩ : Shape).Idx)
    (h0 : (i 0).val = t * 128 + (j 0).val) (h1 : (i 1).val = (j 1).val) :
    Pay.Gblk x0 j = G x i := by
  show ∑ d : Fin 128, x0 (ix3 (j 0) (rowF (j 1)) d) * x0 (ix3 (j 0) (colF (j 1)) d)
    = ∑ d : Fin 128, x (ix3 (i 0) (rowF (i 1)) d) * x (ix3 (i 0) (colF (i 1)) d)
  have hr : (rowF (i 1)).val = (rowF (j 1)).val := by
    show rowOf (i 1).val = rowOf (j 1).val
    rw [h1]
  have hc : (colF (i 1)).val = (colF (j 1)).val := by
    show colOf (i 1).val = colOf (j 1).val
    rw [h1]
  refine Finset.sum_congr rfl fun d _ => ?_
  rw [hx (ix3 (j 0) (rowF (j 1)) d) (ix3 (i 0) (rowF (i 1)) d) h0 hr rfl,
    hx (ix3 (j 0) (colF (j 1)) d) (ix3 (i 0) (colF (i 1)) d) h0 hc rfl]

/-- Point t's input block is rows 128 t … 128 t + 127 of the argument array, the other two axes whole. -/
theorem iblk_apply (c : Dev nD) (t : Fin cfg0.N) (y : S128x64x128.Idx) (k : S16384x64x128.Idx)
    (h0 : (k 0).val = t.val * 128 + (y 0).val) (h1 : (k 1).val = (y 1).val) (h2 : (k 2).val = (y 2).val) :
    (iblk m c 0 t : Vec Ideal S128x64x128 .f32) y = (V m c main_arg0 : S16384x64x128.Idx → EReal) k := by
  obtain ⟨e0, e1, e2, -, -⟩ := idx_facts t
  show V m c main_arg0 (((cfg0.win 0).blk t).view.emb y) = V m c main_arg0 k
  congr 1
  funext a
  apply Fin.ext
  match a with
  | ⟨0, _⟩ => show win0_0.index t (0 : Fin 3) * 128 + 1 * (y 0).val = (k 0).val; omega
  | ⟨1, _⟩ => show win0_0.index t (1 : Fin 3) * 64 + 1 * (y 1).val = (k 1).val; omega
  | ⟨2, _⟩ => show win0_0.index t (2 : Fin 3) * 128 + 1 * (y 2).val = (k 2).val; omega

/-- What point t writes back is block t of `G` of the argument array. -/
theorem flushed_eq (c : Dev nD) (t : Fin cfg0.N) :
    (dats m 0 c).flushed 1 t = ((cfg0.win 1).blk t).view.read (Elt Ideal) (G (V m c main_arg0)) := by
  rw [flushed1_A, Blk.out0_eq]
  obtain ⟨-, -, -, e3, e4⟩ := idx_facts t
  funext j
  show Pay.Gblk (iblk m c 0 t) j = G (V m c main_arg0) (((cfg0.win 1).blk t).view.emb j)
  refine Gblk_eq_G _ _ t.val (fun y k h0 h1 h2 => iblk_apply m c t y k h0 h1 h2) j _ ?_ ?_
  · show win0_1.index t (0 : Fin 2) * 128 + 1 * (j 0).val = t.val * 128 + (j 0).val
    omega
  · show win0_1.index t (1 : Fin 2) * 2016 + 1 * (j 1).val = (j 1).val
    omega

/-- An index of the result array is in point t's block iff each coordinate is in the block's range on its axis. -/
theorem mem_blk (t : Fin cfg0.N) (i : S16384x2016.Idx) :
    i ∈ ((cfg0.win 1).blk t).view.set ↔ ∀ a : Fin 2, win0_1.index t a * S128x2016.size a ≤ (i a).val
      ∧ (i a).val < win0_1.index t a * S128x2016.size a + S128x2016.size a := by
  show i ∈ ((View.whole main_v0).slice (win0_1.rect t)).set ↔ _
  rw [View.set_slice_whole, Rect.mem_set_unit]
  exact Iff.rfl

/-- The 128 blocks of 128 rows tile the result array: row r lies in the block of point r / 128. -/
theorem cover (i : S16384x2016.Idx) :
    ∃ t : Fin cfg0.N, (cfg0.win 1).flush t = true ∧ i ∈ ((cfg0.win 1).blk t).view.set := by
  have hi0 : (i 0).val < 16384 := (i 0).isLt
  have hi1 : (i 1).val < 2016 := (i 1).isLt
  obtain ⟨t, ht⟩ : ∃ t : Fin cfg0.N, t.val = (i 0).val / 128 :=
    ⟨⟨(i 0).val / 128, by rw [show cfg0.N = 128 from N_0]; omega⟩, rfl⟩
  obtain ⟨-, -, -, e3, e4⟩ := idx_facts t
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 2016 ≤ (i 1).val ∧ (i 1).val < win0_1.index t (1 : Fin 2) * 2016 + 2016
    omega

/-- After the run the result array is `G` of the argument array. -/
theorem final (c : Dev nD) : (dats m 0 c).arrAt 1 cfg0.N = G (m ((c : Thread nD τ).loc main_arg0)) := by
  rw [← V_main_arg0 m c]
  exact (dats m 0 c).arrAt_eq_of_cover 1 (G (V m c main_arg0)) (fun t _ => flushed_eq m c t) cover

/-- The kernel's run: the result at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Arr

end
-- ==== Proof.RefChain.lean ====
/-
  The reference's host program as named stages.

  Each definition is one stretch of @main's operations, composed as pure functions, in the program's own order and
  spelling: the strict upper-triangle mask; its running count along the flattened matrix; the histogram of the running
  count (a scatter-add of ones); the running sum of the histogram, which is the flattened position of each set bit; the
  two coordinates of each position (floor division and remainder by 64, as jax writes them); the K × 2 table of pairs;
  and the result, the batched Gram matrix gathered at the table's pairs.
-/
import proofs.«159498_j15745350107452_1_alg».proof.ReferenceIdeal

noncomputable section

namespace Cert.ReferenceIdeal.Chain

open Idealize.ShloMosaic Cert.ReferenceIdeal
open Cert.ReferenceIdeal.Facts₀ Cert.ReferenceIdeal.Facts

variable {F : FTy → Type} [FloatOps F] [Facts]

/-- The scalar word `w` as a rank-zero tensor. -/
abbrev cI (w : BitVec 32) : IVec S_ 32 := constantI S_ 32 w

/-- ones(64, 64) with the lower triangle and the diagonal zeroed (jnp.triu(·, 1)), compared with zero: the mask i < j. -/
def mask : IVec S64x64 1 :=
  cmpf (F := F) .une
    (select
      (cmpi .sge (addi (iotaInDim S64x64 32 0) (broadcastInDim S64x64 ![] bcast_S_S64x64 (cI 0#32))) (iotaInDim S64x64 32 1))
      (broadcastInDim S64x64 ![] bcast_S_S64x64 (constant (F := F) S_ .f32 0x00000000#32))
      (broadcastInDim S64x64 ![] bcast_S_S64x64 (constant (F := F) S_ .f32 0x3F800000#32)))
    (broadcastInDim S64x64 ![] bcast_S_S64x64 (constant (F := F) S_ .f32 0x00000000#32))

/-- The mask flattened and widened to words. -/
def bits : IVec S4096 32 := extui 32 (shapeCast S4096 (mask (F := F)) shapeCasts_S64x64_S4096) natLt_1_32

/-- Its running count (jnp.cumsum). -/
def count : IVec S4096 32 :=
  Host.reduceWindow IntOp.addi ![4096] ![1] ![4095] ![0] (bits (F := F)) (broadcastInDim S_ ![] bcast_S_S_ (cI 0#32))
    reduceWindows_S4096_S4096_w4096s1p4095_0 h_S_

/-- The running count clipped below at 0 and with a negative value wrapped by 2016 (jnp.bincount's index handling). -/
def countIdx : IVec S4096 32 :=
  let c := maxsi (broadcastInDim S4096 ![] bcast_S_S4096 (id (cI 0#32))) (count (F := F))
  select (cmpi .slt c (broadcastInDim S4096 ![] bcast_S_S4096 (cI 0#32))) (addi c (broadcastInDim S4096 ![] bcast_S_S4096 (cI 2016#32))) c

/-- The histogram of the running count over 0 … 2015. -/
def bins : IVec S2016 32 :=
  Host.scatter scatter_S2016_S4096x1_S4096_n_0_0_1 IntOp.addi (broadcastInDim S2016 ![] bcast_S_S2016 (cI 0#32))
    (broadcastInDim S4096x1 ![0] bcast_S4096_S4096x1_0 (countIdx (F := F))) (broadcastInDim S4096 ![] bcast_S_S4096 (cI 1#32))

/-- The running sum of the histogram: the flattened position of the k-th set bit. -/
def flat : IVec S2016 32 :=
  Host.reduceWindow IntOp.addi ![2016] ![1] ![2015] ![0] (bins (F := F)) (broadcastInDim S_ ![] bcast_S_S_ (cI 0#32))
    reduceWindows_S2016_S2016_w2016s1p2015_0 h_S_

/-- jnp.floor_divide of a vector by a scalar word: the truncated quotient, lowered by one where the signs differ and the
    remainder is not zero. -/
def floorDiv (x : IVec S2016 32) (y : IVec S_ 32) : IVec S2016 32 :=
  let q := Host.divsi x (broadcastInDim S2016 ![] bcast_S_S2016 y)
  select
    (andi (cmpi .ne (signi x) (broadcastInDim S2016 ![] bcast_S_S2016 (signi y)))
      (cmpi .ne (Host.remsi x (broadcastInDim S2016 ![] bcast_S_S2016 y)) (broadcastInDim S2016 ![] bcast_S_S2016 (cI 0#32))))
    (subi q (broadcastInDim S2016 ![] bcast_S_S2016 (cI 1#32))) q

/-- jnp.remainder of a vector by a scalar word: the truncated remainder (by 1 where the divisor is 0), raised by the
    divisor where it is not zero and its sign differs from the divisor's. -/
def remainder (x : IVec S2016 32) (y : IVec S_ 32) : IVec S2016 32 :=
  let y' : IVec S_ 32 := select (cmpi .eq (id y) (cI 0#32)) (cI 1#32) (id y)
  let r := Host.remsi x (broadcastInDim S2016 ![] bcast_S_S2016 y')
  select
    (andi (cmpi .ne (cmpi .slt r (broadcastInDim S2016 ![] bcast_S_S2016 (cI 0#32)))
        (broadcastInDim S2016 ![] bcast_S_S2016 (cmpi .slt y' (cI 0#32))))
      (cmpi .ne r (broadcastInDim S2016 ![] bcast_S_S2016 (cI 0#32))))
    (addi r (broadcastInDim S2016 ![] bcast_S_S2016 y')) r

/-- A negative index wrapped by the axis length 64 (jax's indexing of `gram[:, iu, ju]`). -/
def wrap64 (v : IVec S2016 32) : IVec S2016 32 :=
  select (cmpi .slt v (broadcastInDim S2016 ![] bcast_S_S2016 (cI 0#32))) (addi v (broadcastInDim S2016 ![] bcast_S_S2016 (cI 64#32))) v

/-- The row of each position: (flat / 64) mod 64. -/
def rows : IVec S2016 32 := wrap64 (remainder (floorDiv (flat (F := F)) (cI 64#32)) (cI 64#32))

/-- The column of each position: (flat / 1) mod 64. -/
def cols : IVec S2016 32 := wrap64 (remainder (floorDiv (flat (F := F)) (cI 1#32)) (cI 64#32))

/-- The table of (row, column) pairs, 2016 × 2. -/
def table : IVec S2016x2 32 :=
  concatenate S2016x2 1
    [⟨S2016x1, broadcastInDim S2016x1 ![0] bcast_S2016_S2016x1_0 (rows (F := F))⟩,
     ⟨S2016x1, broadcastInDim S2016x1 ![0] bcast_S2016_S2016x1_0 (cols (F := F))⟩]
    concatenates_S2016x1_S2016x1_S2016x2_d1

/-- The result: the batched Gram matrix of the argument, gathered at the table's pairs. -/
def out (x : FVec F S16384x64x128 .f32) : FVec F S16384x2016 .f32 :=
  Host.gather gather_S16384x64x64_S2016x2_S16384x2016_0_12_n_n_12_1_1638411
    (Host.dotGeneral dot_S16384x64x128_S16384x64x128_S16384x64x64_2_2_1_1_0_0 none x x) (table (F := F))

end Cert.ReferenceIdeal.Chain

end
-- ==== Proof.RefRun.lean ====
/-
  The reference's run.

  @main is a straight line of host operations once the module's outlined functions (triu, cumsum, clip, floor_divide,
  remainder and the selects inside them) are unfolded at their calls; every weakly fair execution of it terminates with the
  result buffer at the stages' composed term Chain.out of the argument, and the argument unchanged.

  The line has 136 operations. It is cut into nine stretches along the stages of RefChain: the Gram matrix and the
  triangle mask; the mask's running count; the histogram of the clipped count; its running sum (the flattened positions);
  floor division by 64; remainder by 64 (the rows); floor division by 1; remainder by 64 (the columns); the two wraps, the
  table and the gather. Each stretch is stated over ANY contents of the buffers it reads, with the value of its result
  buffer as the corresponding stage applied to those contents, and with the buffers a later stretch reads left as they
  were; the whole line's effect is the composition of the nine, which is Chain.out by unfolding the stages.
-/
import proofs.«159498_j15745350107452_1_alg».proof.Proof.Gen.ReferenceIdeal
import proofs.«159498_j15745350107452_1_alg».proof.Proof.RefChain
import Idealize.ShloMosaic.Lib.StableHlo.Run

-- a fold through twenty operations is twenty nested results deep
set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages of RefChain with their input as a parameter

Each is the corresponding Chain definition with the previous stage's value abstracted, so that a stretch of the
program can be stated over any contents of its input buffer. -/

/-- The batched Gram matrix of x. -/
def gramOf (x : FVec F S16384x64x128 .f32) : FVec F S16384x64x64 .f32 :=
  Host.dotGeneral dot_S16384x64x128_S16384x64x128_S16384x64x64_2_2_1_1_0_0 none x x

/-- A 64 × 64 mask flattened and widened to words (Chain.bits of any mask). -/
def bitsOf (k : IVec S64x64 1) : IVec S4096 32 := extui 32 (shapeCast S4096 k shapeCasts_S64x64_S4096) natLt_1_32

/-- The running sum of 4096 words (Chain.count of any words). -/
def countOf (b : IVec S4096 32) : IVec S4096 32 :=
  Host.reduceWindow IntOp.addi ![4096] ![1] ![4095] ![0] b (broadcastInDim S_ ![] bcast_S_S_ (Chain.cI 0#32))
    reduceWindows_S4096_S4096_w4096s1p4095_0 h_S_

/-- A count clipped below at 0 and a negative value wrapped by 2016 (Chain.countIdx of any count). -/
def countIdxOf (n : IVec S4096 32) : IVec S4096 32 :=
  let c := maxsi (broadcastInDim S4096 ![] bcast_S_S4096 (id (Chain.cI 0#32))) n
  select (cmpi .slt c (broadcastInDim S4096 ![] bcast_S_S4096 (Chain.cI 0#32))) (addi c (broadcastInDim S4096 ![] bcast_S_S4096 (Chain.cI 2016#32))) c

/-- The histogram over 0 … 2015 of 4096 indices (Chain.bins of any indices). -/
def binsOf (ci : IVec S4096 32) : IVec S2016 32 :=
  Host.scatter scatter_S2016_S4096x1_S4096_n_0_0_1 IntOp.addi (broadcastInDim S2016 ![] bcast_S_S2016 (Chain.cI 0#32))
    (broadcastInDim S4096x1 ![0] bcast_S4096_S4096x1_0 ci) (broadcastInDim S4096 ![] bcast_S_S4096 (Chain.cI 1#32))

/-- The running sum of 2016 words (Chain.flat of any histogram). -/
def flatOf (b : IVec S2016 32) : IVec S2016 32 :=
  Host.reduceWindow IntOp.addi ![2016] ![1] ![2015] ![0] b (broadcastInDim S_ ![] bcast_S_S_ (Chain.cI 0#32))
    reduceWindows_S2016_S2016_w2016s1p2015_0 h_S_

/-- The 2016 × 2 table of two index vectors side by side (Chain.table of any rows and columns). -/
def tableOf (r c : IVec S2016 32) : IVec S2016x2 32 :=
  concatenate S2016x2 1
    [⟨S2016x1, broadcastInDim S2016x1 ![0] bcast_S2016_S2016x1_0 r⟩,
     ⟨S2016x1, broadcastInDim S2016x1 ![0] bcast_S2016_S2016x1_0 c⟩]
    concatenates_S2016x1_S2016x1_S2016x2_d1

/-- A batch of 64 × 64 matrices gathered at a table's pairs (Chain.out of any matrices and table). -/
def outOf (g : FVec F S16384x64x64 .f32) (t : IVec S2016x2 32) : FVec F S16384x2016 .f32 :=
  Host.gather gather_S16384x64x64_S2016x2_S16384x2016_0_12_n_n_12_1_1638411 g t

-- The windowed sums, the scatter and the gather are folds and searches over their operands' elements; no equation below
-- looks inside them, so they stay folded while two composed terms are compared.
attribute [local irreducible] Host.reduceWindow Host.scatter Host.gather

/-! ## Stretch A: the Gram matrix and the mask i < j -/

/-- Fifteen operations: the batched Gram matrix; the constant one and ones(64, 64); triu's nine (the row index, the zero
    offset and its broadcast, their sum, the column index, the comparison row + 0 ≥ column, the constant zero and the zero
    matrix, the select); the constant zero and the zero matrix; the comparison with zero. -/
abbrev opsA : List (HloOp τ sig (Elt F)) :=
  [ binary main_arg0 main_arg0 main_v0 ((fun l r => Host.dotGeneral dot_S16384x64x128_S16384x64x128_S16384x64x64_2_2_1_1_0_0 none l r) : (⟨S16384x64x128, .f32⟩ : BufTy).Contents (Elt F) → (⟨S16384x64x128, .f32⟩ : BufTy).Contents (Elt F) → (⟨S16384x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)) ]

theorem opsA_sub : (opsA : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl⟩

/-- After stretch A the comparison's buffer holds the mask, whatever the buffers held before. -/
theorem mask_eq (V : Valuation τ sig (Elt F)) :
    after opsA V (main_v4 : DevRef τ sig) = Chain.mask (F := F) := by
  simp only [after_cons, after_nil]; rfl

/-- After stretch A the first buffer holds the Gram matrix of the argument. -/
theorem gram_eq (V : Valuation τ sig (Elt F)) :
    after opsA V (main_v0 : DevRef τ sig) = gramOf (V (main_arg0 : DevRef τ sig)) := by
  simp only [after_cons, after_nil]; rfl

theorem keepA_arg0 (V : Valuation τ sig (Elt F)) :
    after opsA V (main_arg0 : DevRef τ sig) = V (main_arg0 : DevRef τ sig) := by
  simp only [after_cons, after_nil]; rfl

/-! ## Stretch B: the running count of the mask -/

/-- cumsum's five operations: the reshape to 4096, the widening to words, cumsum_0's zero, its rank-zero broadcast and
    the windowed sum (window 4096, padded by 4095 on the left). -/
abbrev opsB : List (HloOp τ sig (Elt F)) :=
  [ TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_) ]

theorem opsB_sub : (opsB : List (HloOp τ sig (Elt F))).Forall fun op => op.bufs ⊆ tcRefs τ sig :=
  ⟨reshape_bufs_sub .., unary_bufs_sub .., nullary_bufs_sub .., unary_bufs_sub .., binary_bufs_sub ..⟩

theorem opsB_fresh : (opsB : List (HloOp τ sig (Elt F))).Forall fun op => op.fresh = ∅ :=
  ⟨rfl, rfl, rfl, rfl, rfl⟩

/-- After stretch B the count's buffer holds the running sum of the widened, flattened contents of the mask's buffer. -/
theorem count_eq (V : Valuation τ sig (Elt F)) :
    after opsB V (main_v5 : DevRef τ sig) = countOf (bitsOf (V (main_v4 : DevRef τ sig))) := by
  simp only [after_cons, after_nil]; rfl

theorem keepB_arg0 (V : Valuation τ sig (Elt F)) :
    after opsB V (main_arg0 : DevRef τ sig) = V (main_arg0 : DevRef τ sig) := by
  simp only [after_cons, after_nil]; rfl

theorem keepB_v0 (V : Valuation τ sig (Elt F)) :
    after opsB V (main_v0 : DevRef τ sig) = V (main_v0 : DevRef τ sig) := by
  simp only [after_cons, after_nil]; rfl

/-! ## Stretch C: the histogram of the clipped count -/

/-- Seventeen operations: the zero and the zero histogram; the zero clip bound; clip's three (the bound converted to its
    own type, broadcast, the maximum with the count); the zero vector, the comparison below zero, 2016 and its broadcast, the
    sum, the select (a negative index wrapped by 2016); the index column; the one and the ones; the scatter-add. -/
abbrev opsC : List (HloOp τ sig (Elt F)) :=
  [ nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)) ]

theorem opsC_sub : (opsC : List (HloOp τ sig (Elt F))).Forall fun op => op.bufs ⊆ tcRefs τ sig :=
  ⟨nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl⟩

/-- After stretch C the scatter's buffer holds the histogram of the clipped, wrapped contents of the count's buffer. -/
theorem bins_eq (V : Valuation τ sig (Elt F)) :
    after opsC V (main_v15 : DevRef τ sig) = binsOf (countIdxOf (V (main_v5 : DevRef τ sig))) := by
  simp only [after_cons, after_nil]; rfl

theorem keepC_arg0 (V : Valuation τ sig (Elt F)) :
    after opsC V (main_arg0 : DevRef τ sig) = V (main_arg0 : DevRef τ sig) := by
  simp only [after_cons, after_nil]; rfl

theorem keepC_v0 (V : Valuation τ sig (Elt F)) :
    after opsC V (main_v0 : DevRef τ sig) = V (main_v0 : DevRef τ sig) := by
  simp only [after_cons, after_nil]; rfl

/-! ## Stretch D: the running sum of the histogram -/

/-- cumsum_1 only calls cumsum_2, whose three operations these are: the zero, its rank-zero broadcast and the windowed
    sum (window 2016, padded by 2015 on the left). -/
abbrev opsD : List (HloOp τ sig (Elt F)) :=
  [ TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_) ]

theorem opsD_sub : (opsD : List (HloOp τ sig (Elt F))).Forall fun op => op.bufs ⊆ tcRefs τ sig :=
  ⟨nullary_bufs_sub .., unary_bufs_sub .., binary_bufs_sub ..⟩

theorem opsD_fresh : (opsD : List (HloOp τ sig (Elt F))).Forall fun op => op.fresh = ∅ :=
  ⟨rfl, rfl, rfl⟩

/-- After stretch D the positions' buffer holds the running sum of the contents of the histogram's buffer. -/
theorem flat_eq (V : Valuation τ sig (Elt F)) :
    after opsD V (main_v16 : DevRef τ sig) = flatOf (V (main_v15 : DevRef τ sig)) := by
  simp only [after_cons, after_nil]; rfl

theorem keepD_arg0 (V : Valuation τ sig (Elt F)) :
    after opsD V (main_arg0 : DevRef τ sig) = V (main_arg0 : DevRef τ sig) := by
  simp only [after_cons, after_nil]; rfl

theorem keepD_v0 (V : Valuation τ sig (Elt F)) :
    after opsD V (main_v0 : DevRef τ sig) = V (main_v0 : DevRef τ sig) := by
  simp only [after_cons, after_nil]; rfl

/-! ## Stretch E: the positions floor-divided by 64 -/

/-- The divisor 64, then floor_divide's seventeen less one: the divisor's broadcast, the truncated quotient, the two
    signs, the divisor's sign broadcast, their comparison, the divisor's broadcast again, the truncated remainder, the zero
    and its broadcast, the remainder's comparison with it, the conjunction, the one and its broadcast, the quotient less
    one, and the select of the inner function. -/
abbrev opsE : List (HloOp τ sig (Elt F)) :=
  [ nullary main_c_5 (constantI S_ 32 64#32),
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select ]

theorem opsE_sub : (opsE : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl⟩

/-- After stretch E the quotient's buffer holds the floor division by 64 of the contents of the positions' buffer. -/
theorem fdiv64_eq (V : Valuation τ sig (Elt F)) :
    after opsE V (main_v17 : DevRef τ sig) = Chain.floorDiv (V (main_v16 : DevRef τ sig)) (Chain.cI 64#32) := by
  simp only [after_cons, after_nil]; rfl

theorem keepE_arg0 (V : Valuation τ sig (Elt F)) :
    after opsE V (main_arg0 : DevRef τ sig) = V (main_arg0 : DevRef τ sig) := by
  simp only [after_cons, after_nil]; rfl

theorem keepE_v0 (V : Valuation τ sig (Elt F)) :
    after opsE V (main_v0 : DevRef τ sig) = V (main_v0 : DevRef τ sig) := by
  simp only [after_cons, after_nil]; rfl

theorem keepE_v16 (V : Valuation τ sig (Elt F)) :
    after opsE V (main_v16 : DevRef τ sig) = V (main_v16 : DevRef τ sig) := by
  simp only [after_cons, after_nil]; rfl

/-! ## Stretch G: that quotient's remainder by 64 (the rows) -/

/-- The divisor 64, then remainder's twenty-one: the divisor converted to its own type, the zero, the comparison with it,
    the one, the inner select (the divisor, or 1 where it is 0), its broadcast, the truncated remainder, three times a zero
    with (twice) its broadcast between the remainder's comparisons not-equal and below, the divisor's comparison below zero
    and its broadcast, the two signs' difference, the conjunction, the divisor's broadcast again, the sum, the select. -/
abbrev opsG : List (HloOp τ sig (Elt F)) :=
  [ nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select ]

theorem opsG_sub : (opsG : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩

theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- After stretch G the rows' buffer holds the remainder by 64 of the contents of the first quotient's buffer. -/
theorem rows_eq (V : Valuation τ sig (Elt F)) :
    after opsG V (main_v18 : DevRef τ sig) = Chain.remainder (V (main_v17 : DevRef τ sig)) (Chain.cI 64#32) := by
  simp only [after_cons, after_nil]; rfl

theorem keepG_arg0 (V : Valuation τ sig (Elt F)) :
    after opsG V (main_arg0 : DevRef τ sig) = V (main_arg0 : DevRef τ sig) := by
  simp only [after_cons, after_nil]; rfl

theorem keepG_v0 (V : Valuation τ sig (Elt F)) :
    after opsG V (main_v0 : DevRef τ sig) = V (main_v0 : DevRef τ sig) := by
  simp only [after_cons, after_nil]; rfl

theorem keepG_v16 (V : Valuation τ sig (Elt F)) :
    after opsG V (main_v16 : DevRef τ sig) = V (main_v16 : DevRef τ sig) := by
  simp only [after_cons, after_nil]; rfl

/-! ## Stretch H: the positions floor-divided by 1 -/

/-- The divisor 1, then floor_divide's operations again, into the second call's buffers. -/
abbrev opsH : List (HloOp τ sig (Elt F)) :=
  [ nullary main_c_7 (constantI S_ 32 1#32),
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select ]

theorem opsH_sub : (opsH : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl⟩

/-- After stretch H the second quotient's buffer holds the floor division by 1 of the contents of the positions' buffer. -/
theorem fdiv1_eq (V : Valuation τ sig (Elt F)) :
    after opsH V (main_v19 : DevRef τ sig) = Chain.floorDiv (V (main_v16 : DevRef τ sig)) (Chain.cI 1#32) := by
  simp only [after_cons, after_nil]; rfl

theorem keepH_arg0 (V : Valuation τ sig (Elt F)) :
    after opsH V (main_arg0 : DevRef τ sig) = V (main_arg0 : DevRef τ sig) := by
  simp only [after_cons, after_nil]; rfl

theorem keepH_v0 (V : Valuation τ sig (Elt F)) :
    after opsH V (main_v0 : DevRef τ sig) = V (main_v0 : DevRef τ sig) := by
  simp only [after_cons, after_nil]; rfl

theorem keepH_v18 (V : Valuation τ sig (Elt F)) :
    after opsH V (main_v18 : DevRef τ sig) = V (main_v18 : DevRef τ sig) := by
  simp only [after_cons, after_nil]; rfl

/-! ## Stretch I: that quotient's remainder by 64 (the columns) -/

/-- The divisor 64, then remainder's operations again, into the second call's buffers. -/
abbrev opsI : List (HloOp τ sig (Elt F)) :=
  [ nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select ]

theorem opsI_sub : (opsI : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩

theorem opsI_fresh : (opsI : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- After stretch I the columns' buffer holds the remainder by 64 of the contents of the second quotient's buffer. -/
theorem cols_eq (V : Valuation τ sig (Elt F)) :
    after opsI V (main_v20 : DevRef τ sig) = Chain.remainder (V (main_v19 : DevRef τ sig)) (Chain.cI 64#32) := by
  simp only [after_cons, after_nil]; rfl

theorem keepI_arg0 (V : Valuation τ sig (Elt F)) :
    after opsI V (main_arg0 : DevRef τ sig) = V (main_arg0 : DevRef τ sig) := by
  simp only [after_cons, after_nil]; rfl

theorem keepI_v0 (V : Valuation τ sig (Elt F)) :
    after opsI V (main_v0 : DevRef τ sig) = V (main_v0 : DevRef τ sig) := by
  simp only [after_cons, after_nil]; rfl

theorem keepI_v18 (V : Valuation τ sig (Elt F)) :
    after opsI V (main_v18 : DevRef τ sig) = V (main_v18 : DevRef τ sig) := by
  simp only [after_cons, after_nil]; rfl

/-! ## Stretch N: the wraps by 64, the table and the gather -/

/-- Eighteen operations: for the rows, then for the columns, the zero and its broadcast, the comparison below zero, 64 and
    its broadcast, the sum, the select; the two index columns; their concatenation; the gather from the Gram matrix. -/
abbrev opsN : List (HloOp τ sig (Elt F)) :=
  [ nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)) ]

theorem opsN_sub : (opsN : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

theorem opsN_fresh : (opsN : List (HloOp τ sig (Elt F))).Forall fun op => op.fresh = ∅ :=
  ⟨rfl, rfl, rfl, rfl, rfl, rfl, rfl, rfl, rfl, rfl, rfl, rfl, rfl, rfl, rfl, rfl, rfl, rfl⟩

/-- After stretch N the result buffer holds the Gram buffer's contents gathered at the table of the wrapped contents of
    the rows' and the columns' buffers. -/
theorem tail_eq (V : Valuation τ sig (Elt F)) :
    after opsN V (main_v34 : DevRef τ sig)
      = outOf (V (main_v0 : DevRef τ sig)) (tableOf (Chain.wrap64 (V (main_v18 : DevRef τ sig))) (Chain.wrap64 (V (main_v20 : DevRef τ sig)))) := by
  simp only [after_cons, after_nil]; rfl

theorem keepN_arg0 (V : Valuation τ sig (Elt F)) :
    after opsN V (main_arg0 : DevRef τ sig) = V (main_arg0 : DevRef τ sig) := by
  simp only [after_cons, after_nil]; rfl

/-! ## The whole line -/

theorem forall_app {α : Type} {p : α → Prop} {l₁ l₂ : List α} (h₁ : l₁.Forall p) (h₂ : l₂.Forall p) : (l₁ ++ l₂).Forall p :=
  List.forall_append.mpr ⟨h₁, h₂⟩

/-- The fold over two lines in a row is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- @main's 136 operations, in order, the calls unfolded: the nine stretches one after the other. -/
abbrev ops : List (HloOp τ sig (Elt F)) := opsA ++ opsB ++ opsC ++ opsD ++ opsE ++ opsG ++ opsH ++ opsI ++ opsN

set_option maxHeartbeats 1000000 in
/-- @main is that straight line: the functions' definitions unfolded at their calls and the records at their fields,
    both sides are one chain of steps once sequencing is reassociated. -/
theorem main_eq (c : Dev nD) : main (F := F) c = seq ops := by
  simp only [ops, seq_append]
  simp only [main, fn_triu.body, fn_cumsum.body, fn_cumsum_0.body, fn_clip.body, fn_cumsum_1.body, fn_cumsum_2.body, fn_where.body,
    fn_floor_divide.body, fn_where_3.body, fn_remainder.body, opsA, opsB, opsC, opsD, opsE, opsG, opsH, opsI, opsN, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app (forall_app (forall_app (forall_app (forall_app (forall_app (forall_app opsA_sub opsB_sub) opsC_sub) opsD_sub)
    opsE_sub) opsG_sub) opsH_sub) opsI_sub) opsN_sub

theorem ops_fresh : (ops : List (HloOp τ sig (Elt F))).Forall fun op => op.fresh = ∅ :=
  forall_app (forall_app (forall_app (forall_app (forall_app (forall_app (forall_app (forall_app opsA_fresh opsB_fresh) opsC_fresh) opsD_fresh)
    opsE_fresh) opsG_fresh) opsH_fresh) opsI_fresh) opsN_fresh

/-! The parametrized stages at the previous stage's value are RefChain's stages, by unfolding one definition each. -/

theorem bits_fold : bitsOf (Chain.mask (F := F)) = Chain.bits (F := F) := rfl
theorem count_fold : countOf (Chain.bits (F := F)) = Chain.count (F := F) := rfl
theorem countIdx_fold : countIdxOf (Chain.count (F := F)) = Chain.countIdx (F := F) := rfl
theorem bins_fold : binsOf (Chain.countIdx (F := F)) = Chain.bins (F := F) := rfl
theorem flat_fold : flatOf (Chain.bins (F := F)) = Chain.flat (F := F) := rfl

/-- The fold of the whole line at the result buffer is Chain.out of the argument's contents: the stretches' values
    composed from the last to the first, each reading what the one before left, then the stages folded to their names;
    what is left is Chain.out, Chain.table, Chain.rows and Chain.cols unfolded. -/
theorem out_eq (V : Valuation τ sig (Elt F)) :
    after ops V (main_v34 : DevRef τ sig) = Chain.out (F := F) (V (main_arg0 : DevRef τ sig)) := by
  simp only [ops, after_app]
  rw [tail_eq, keepI_v0, keepI_v18, cols_eq, keepH_v0, keepH_v18, fdiv1_eq, keepG_v0, rows_eq, keepG_v16, keepE_v0, fdiv64_eq,
    keepE_v16, keepD_v0, flat_eq, keepC_v0, bins_eq, keepB_v0, count_eq, gram_eq, mask_eq,
    bits_fold, count_fold, countIdx_fold, bins_fold, flat_fold]
  rfl

/-- No operation of the line writes the argument's buffer. -/
theorem arg0_eq (V : Valuation τ sig (Elt F)) :
    after ops V (main_arg0 : DevRef τ sig) = V (main_arg0 : DevRef τ sig) := by
  simp only [ops, after_app]
  rw [keepN_arg0, keepI_arg0, keepH_arg0, keepG_arg0, keepE_arg0, keepD_arg0, keepC_arg0, keepB_arg0, keepA_arg0]

/-- On every device, from any memory with zero counters: every weakly fair execution of @main terminates with the result
    at the stages' composed term of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = Chain.out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_seq scopedRefs_eq scopedSems_eq defs main (fun _ => ops) main_eq (fun _ => ops_sub) m ρ
      (fun _ => List.forall_iff_forall_mem.mp ops_fresh))

end Cert.ReferenceIdeal.HandRun

end
-- ==== Proof.LibCumsum.lean ====
/-
  A running sum of words, as the window sum it lowers to.

  jnp.cumsum of a vector of N words prints as a reduce_window: a window of N cells, N − 1 cells of padding below,
  stride one, the body an integer add from 0.  Entry j of the result is the sum of entries 0 … j of the operand, as
  long as that sum does not wrap.  Generic in N.
-/
import Idealize.ShloMosaic.PureOps
import Idealize.ShloMosaic.Lib.ValueIdx
import Idealize.ShloMosaic.Lib.StableHlo.Predicate
import Mathlib.Algebra.BigOperators.Fin
import Mathlib.Algebra.BigOperators.Intervals

namespace Idealize.ShloMosaic.Cumsum

open Idealize.ShloMosaic Idealize.ShloMosaic.ValueIdx

/-- A left fold of word addition: its value is the start plus the sum of the values, modulo 2³². -/
theorem toNat_foldl_addi {ι : Type} (l : List ι) (g : ι → BitVec 32) (a : BitVec 32) :
    (l.foldl (fun r n => IntOp.addi r (g n)) a).toNat
      = (a.toNat + (l.map fun n => (g n).toNat).sum) % 2 ^ 32 := by
  induction l generalizing a with
  | nil => simp [Nat.mod_eq_of_lt a.isLt]
  | cons b l ih =>
    rw [List.foldl_cons, ih, List.map_cons, List.sum_cons]
    show ((a + g b).toNat + _) % _ = _
    rw [BitVec.toNat_add, Nat.mod_add_mod, Nat.add_assoc]

/-- The window sum re-indexed: position k of a window of lo + 1 cells at offset j, padded lo cells below, reads
    cell j + k − lo when that is not padding; those cells are 0 … j. -/
theorem sum_window (lo j : ℕ) (hj : j ≤ lo) (f : ℕ → ℕ) :
    ∑ k ∈ Finset.range (lo + 1), (if lo ≤ j + k ∧ j + k - lo < lo + 1 then f (j + k - lo) else 0)
      = ∑ q ∈ Finset.range (j + 1), f q := by
  rw [← Finset.sum_filter]
  refine Finset.sum_nbij' (fun k => j + k - lo) (fun q => q + lo - j) ?_ ?_ ?_ ?_ ?_
  all_goals simp only [Finset.mem_filter, Finset.mem_range]
  all_goals intros
  all_goals first | rfl | omega | (constructor <;> omega)

/-- Entry `j` of the running sum is `Σ_{q ≤ j} x q` when that sum is below 2³². -/
theorem reduceWindow_cumsum_toNat {N lo : ℕ} (hlo : lo + 1 = N) (x : IVec ⟨1, ![N]⟩ 32) (init : IVec ⟨0, ![]⟩ 32)
    (hinit : ∀ i, init i = 0#32)
    (h : (⟨1, ![N]⟩ : Shape).ReduceWindows (![N] : Fin 1 → ℕ) ![1] ![lo] ![0] ⟨1, ![N]⟩)
    (hu : 0 < (⟨0, ![]⟩ : Shape).numel)
    (f : ℕ → ℕ) (hf : ∀ q : Fin N, (x (ix1 q)).toNat = f q.val) (j : Fin N)
    (hsum : ∑ q ∈ Finset.range (j.val + 1), f q < 2 ^ 32) :
    (Host.reduceWindow IntOp.addi (![N] : Fin 1 → ℕ) ![1] ![lo] ![0] x init h hu (ix1 j)).toNat
      = ∑ q ∈ Finset.range (j.val + 1), f q := by
  subst hlo
  -- the fold of word addition from 0 is the sum of the values modulo 2³²
  simp only [Host.reduceWindow]
  rw [toNat_foldl_addi, hinit, ← Fin.sum_univ_def, show (0#32).toNat = 0 from rfl, Nat.zero_add]
  have step : ∀ A B : ℕ, A = B → B < 2 ^ 32 → A % 2 ^ 32 = B := by
    intro A B h1 h2; subst h1; exact Nat.mod_eq_of_lt h2
  refine step _ _ ?_ hsum
  -- a rank-1 window's row-major position is its one coordinate, and the window has lo + 1 cells
  have hval : ∀ n : Fin (⟨1, ![lo + 1]⟩ : Shape).numel,
      ((⟨1, ![lo + 1]⟩ : Shape).rowMajor.symm n 0).val = n.val := by
    intro n
    have := Shape.rowMajor_val_one ((⟨1, ![lo + 1]⟩ : Shape).rowMajor.symm n)
    rw [Equiv.apply_symm_apply] at this
    exact this.symm
  have hn : (⟨1, ![lo + 1]⟩ : Shape).numel = lo + 1 := by simp [Shape.numel]
  trans ∑ n : Fin (⟨1, ![lo + 1]⟩ : Shape).numel,
      (fun k => if lo ≤ j.val + k ∧ j.val + k - lo < lo + 1 then f (j.val + k - lo) else 0) n.val
  · refine Finset.sum_congr rfl fun n _ => ?_
    -- window position n of result entry j sits at padded position j + n
    have e0 : ∀ a : Fin 1, (ix1 j (Fin.cast rfl a)).val * (![1] : Fin 1 → ℕ) a
        + ((⟨1, ![lo + 1]⟩ : Shape).rowMajor.symm n a).val = j.val + n.val := by
      intro a; obtain rfl : a = 0 := Subsingleton.elim _ _
      show j.val * 1 + _ = _; rw [hval]; omega
    show _ = if lo ≤ j.val + n.val ∧ j.val + n.val - lo < lo + 1 then f (j.val + n.val - lo) else 0
    split
    · rename_i hin
      have h0 : lo ≤ j.val + n.val ∧ j.val + n.val - lo < lo + 1 := by
        have := hin 0; rw [e0 0] at this; exact this
      rw [if_pos h0]
      rw [← hf ⟨j.val + n.val - lo, h0.2⟩]
      refine congrArg BitVec.toNat (congrArg x ?_)
      funext a; obtain rfl : a = 0 := Subsingleton.elim _ _
      exact Fin.ext (congrArg (· - lo) (e0 0))
    · rename_i hin
      rw [if_neg fun hc => hin fun a => by
        obtain rfl : a = 0 := Subsingleton.elim _ _
        rw [e0 0]; exact hc]
      rfl
  · refine (Fin.sum_univ_eq_sum_range
      (fun k => if lo ≤ j.val + k ∧ j.val + k - lo < lo + 1 then f (j.val + k - lo) else 0) _).trans ?_
    rw [hn]
    exact sum_window lo j.val (by omega) f

end Idealize.ShloMosaic.Cumsum
-- ==== Proof.TriCount.lean ====
/-
  Counting along the flattened upper triangle.

  Read the 64 × 64 strict upper-triangle mask row by row as a vector of 4096 bits.  Its running count at position p is
  `csum p`.  The number of positions whose running count is at most k is the flattened position 64 i + j of the
  (k + 1)-th set bit, that is of the k-th pair (i, j) = (rowOf k, colOf k): the running count is monotone, stays at most
  k before that position and exceeds k from it on.
-/
import proofs.«159498_j15745350107452_1_alg».proof.Proof.Spec

namespace Cert.Tri

/-- The strict upper-triangle mask along the flattened matrix: position p is (p / 64, p % 64). -/
def msk (p : ℕ) : ℕ := if p / 64 < p % 64 then 1 else 0

/-- Its running count, position p included. -/
def csum (p : ℕ) : ℕ := ∑ q ∈ Finset.range (p + 1), msk q

/-- Closed form of the running count: at position 64 i + j, the rows above row i hold off i set bits and row i
holds j - i of them up to column j (none while j ≤ i). -/
def cs (p : ℕ) : ℕ := off (p / 64) + (p % 64 - p / 64)

theorem cs_zero : cs 0 = msk 0 := by decide

/-- The closed form obeys the recurrence of the running count. -/
theorem cs_succ : ∀ p < 4095, cs (p + 1) = cs p + msk (p + 1) := by
  decide +kernel

/-- The running count equals its closed form on the whole flattened matrix. -/
theorem csum_eq_cs (p : ℕ) (hp : p < 4096) : csum p = cs p := by
  induction p with
  | zero => simp [csum, cs_zero]
  | succ n ih =>
    have h := ih (by omega)
    unfold csum at h ⊢
    rw [Finset.sum_range_succ, h, cs_succ n (by omega)]

/-- The running count is monotone. -/
theorem cs_mono {p q : ℕ} (hpq : p ≤ q) (hq : q < 4096) : cs p ≤ cs q := by
  induction q, hpq using Nat.le_induction with
  | base => exact le_rfl
  | succ n hn ih =>
    have h1 := ih (by omega)
    have h2 := cs_succ n (by omega)
    omega

theorem cs_last : cs 4095 = 2016 := by decide

/-- At the flattened position P of the k-th pair the running count steps from k to k + 1. -/
theorem cs_at_pair : ∀ k < 2016, 1 ≤ 64 * rowOf k + colOf k ∧ 64 * rowOf k + colOf k < 4096 ∧
    cs (64 * rowOf k + colOf k - 1) ≤ k ∧ k < cs (64 * rowOf k + colOf k) := by
  decide +kernel

/-- The triangle has 2016 entries: the running count never passes that. -/
theorem csum_le (p : ℕ) (hp : p < 4096) : csum p ≤ 2016 := by
  rw [csum_eq_cs p hp, ← cs_last]
  exact cs_mono (by omega) (by omega)

/-- The positions with running count at most `k` are exactly those before the k-th pair's flattened position. -/
theorem count_le (k : ℕ) (hk : k < 2016) :
    ((Finset.range 4096).filter fun p => csum p ≤ k).card = 64 * rowOf k + colOf k := by
  obtain ⟨h1, h2, h3, h4⟩ := cs_at_pair k hk
  generalize 64 * rowOf k + colOf k = P at h1 h2 h3 h4 ⊢
  have hset : ((Finset.range 4096).filter fun p => csum p ≤ k) = Finset.range P := by
    ext p
    simp only [Finset.mem_filter, Finset.mem_range]
    constructor
    · rintro ⟨hp, hc⟩
      by_contra hlt
      have hm := cs_mono (Nat.le_of_not_lt hlt) hp
      rw [csum_eq_cs p hp] at hc
      omega
    · intro hp
      have hp' : p < 4096 := by omega
      refine ⟨hp', ?_⟩
      rw [csum_eq_cs p hp']
      have hm := cs_mono (show p ≤ P - 1 by omega) (by omega)
      omega
  rw [hset, Finset.card_range]

/-- The same count split by the value of the running count: a histogram of the running count, then summed up to k. -/
theorem sum_bins (k : ℕ) (hk : k < 2016) :
    ∑ k' ∈ Finset.range (k + 1), ((Finset.range 4096).filter fun p => csum p = k').card = 64 * rowOf k + colOf k := by
  rw [← count_le k hk]
  rw [Finset.card_eq_sum_card_fiberwise (f := csum) (t := Finset.range (k + 1))]
  · refine Finset.sum_congr rfl fun k' hk' => ?_
    rw [Finset.filter_filter]
    congr 1
    ext p
    simp only [Finset.mem_filter, Finset.mem_range] at hk' ⊢
    constructor
    · rintro ⟨hp, hc⟩
      exact ⟨hp, by omega, hc⟩
    · rintro ⟨hp, _, hc⟩
      exact ⟨hp, hc⟩
  · intro p hp
    simp only [Finset.mem_coe, Finset.mem_filter, Finset.mem_range] at hp ⊢
    omega

end Cert.Tri
-- ==== Proof.RefCount.lean ====
/-
  The reference's running count of the upper-triangle mask.

  The mask compares ones-above-the-diagonal with zero, so at (i, j) it is the bit i < j; flattened row by row, position p
  is (p / 64, p % 64); the running sum of the widened bits at position p is `Cert.Tri.csum p`.
-/
import proofs.«159498_j15745350107452_1_alg».proof.Proof.RefChain
import proofs.«159498_j15745350107452_1_alg».proof.Proof.LibCumsum
import proofs.«159498_j15745350107452_1_alg».proof.Proof.TriCount
import Idealize.ShloMosaic.PureOps.Ideal.Laws
import Idealize.ShloMosaic.Lib.Pipeline.Value

noncomputable section

namespace Cert.ReferenceIdeal.Chain

open Idealize.ShloMosaic Idealize.ShloMosaic.ValueIdx Cert.ReferenceIdeal Cert.Tri

variable [Facts]

open Idealize.ShloMosaic.StableHlo.Predicate in
/-- The mask at (i, j) is the bit i < j. -/
theorem mask_apply (i j : Fin 64) : mask (F := Ideal) (ix2 i j) = if i.val < j.val then 1#1 else 0#1 := by
  unfold mask
  simp only [cmpf, select, cmpi, addi, iotaInDim, bcast_scalar _ Facts₀.h_S_, constant, constantI, cI, Scalar.select]
  show FloatOps.cmpf CmpFPredicate.une
      (if IntOp.cmpi CmpIPredicate.sge (IntOp.addi (BitVec.ofNat 32 i.val) 0#32) (BitVec.ofNat 32 j.val) = 1#1 then
        (FloatOps.ofBits FTy.f32 0x00000000#32 : Ideal .f32) else FloatOps.ofBits FTy.f32 0x3F800000#32)
      (FloatOps.ofBits FTy.f32 0x00000000#32) = _
  -- the two row and column words are small, so the signed comparison is the comparison of the naturals
  have hi : (BitVec.ofNat 32 i.val).toNat = i.val := by
    rw [BitVec.toNat_ofNat]; exact Nat.mod_eq_of_lt (by omega)
  have hj : (BitVec.ofNat 32 j.val).toNat = j.val := by
    rw [BitVec.toNat_ofNat]; exact Nat.mod_eq_of_lt (by omega)
  have hc : IntOp.cmpi .sge (IntOp.addi (BitVec.ofNat 32 i.val) 0#32) (BitVec.ofNat 32 j.val) = 1#1 ↔ j.val ≤ i.val := by
    rw [show IntOp.addi (BitVec.ofNat 32 i.val) 0#32 = BitVec.ofNat 32 i.val from BitVec.add_zero _,
      sge_iff_toNat (by omega) (by omega), hi, hj]
  -- the word 0x3F800000 is the real 1, which is not 0
  have h1 : (FloatOps.ofBits .f32 0x3F800000#32 : Ideal .f32) = 1 := by
    show Ideal.ofBits .f32 0x3F800000#32 = 1
    simp [Ideal.ofBits, Ideal.ieee, -EReal.coe_mul]; norm_num
  have h0 : (FloatOps.ofBits .f32 0x00000000#32 : Ideal .f32) = 0 := Ideal.ofBits_zero_f32
  by_cases hij : i.val < j.val
  · rw [if_pos hij, if_neg (fun hh => absurd (hc.1 hh) (by omega)), Ideal.cmpf_def, h1, h0]
    simp [Ideal.cmp]
  · rw [if_neg hij, if_pos (hc.2 (by omega)), Ideal.cmpf_def]
    simp [Ideal.cmp]

open Idealize.ShloMosaic.StableHlo.Predicate in
/-- The flattened, widened mask at position p is `msk p`. -/
theorem bits_toNat (p : Fin 4096) : (bits (F := Ideal) (ix1 p)).toNat = msk p.val := by
  -- position p of the flattened matrix is entry (p / 64, p % 64)
  have hcast : shapeCast S4096 (mask (F := Ideal)) Facts₀.shapeCasts_S64x64_S4096 (ix1 p)
      = mask (F := Ideal) (ix2 (⟨p.val / 64, by omega⟩ : Fin 64) (⟨p.val % 64, by omega⟩ : Fin 64)) :=
    shapeCast_apply _ _ (ix1 p) _ (by
      rw [Shape.rowMajor_val_two, Shape.rowMajor_val_one]
      show p.val / 64 * 64 + p.val % 64 = p.val
      omega)
  show ((shapeCast S4096 (mask (F := Ideal)) _ (ix1 p)).setWidth 32).toNat = _
  rw [hcast, mask_apply, toNat_setWidth_bit]
  unfold msk
  by_cases h : p.val / 64 < p.val % 64 <;> simp [h]

open Idealize.ShloMosaic.StableHlo.Predicate in
/-- The running count at position p. -/
theorem count_val (p : Fin 4096) : count (F := Ideal) (ix1 p) = BitVec.ofNat 32 (csum p.val) := by
  have hle := csum_le p.val p.isLt
  -- the window sum is the running sum of the bits, which stays below 2³²
  have h := Idealize.ShloMosaic.Cumsum.reduceWindow_cumsum_toNat (N := 4096) (lo := 4095) rfl (bits (F := Ideal))
    (broadcastInDim S_ ![] Facts₀.bcast_S_S_ (cI 0#32))
    (fun i => bcast_scalar Facts₀.bcast_S_S_ Facts₀.h_S_ (cI 0#32) i)
    Facts₀.reduceWindows_S4096_S4096_w4096s1p4095_0 Facts₀.h_S_ msk (fun q => bits_toNat q) p
    (by show csum p.val < 2 ^ 32; omega)
  apply BitVec.eq_of_toNat_eq
  rw [BitVec.toNat_ofNat, Nat.mod_eq_of_lt (by omega)]
  exact h

end Cert.ReferenceIdeal.Chain

end
-- ==== Proof.LibScatterCount.lean ====
/-
  A histogram by scatter-add.

  Scattering the word 1 with an integer add into a zero vector of length M, at N scalar indices, leaves at position k
  the number of indices equal to k; an index outside 0 … M − 1 is dropped.  (jnp.bincount lowers to this.)  Generic in
  M and N.
-/
import Idealize.ShloMosaic.PureOps
import Idealize.ShloMosaic.Lib.ValueIdx
import Idealize.ShloMosaic.Lib.StableHlo.Predicate

namespace Idealize.ShloMosaic.ScatterCount

open Idealize.ShloMosaic Idealize.ShloMosaic.ValueIdx

/-- A left fold whose every step adds, at one fixed position, the word 1 or 0 according to a predicate of the step's
    number adds there, in all, the number of steps at which the predicate holds. -/
theorem foldl_add_count {A : Type} {m : ℕ} (step : (A → BitVec 32) → Fin m → A → BitVec 32) (a : A) (p : ℕ → Prop)
    [DecidablePred p] (hstep : ∀ r n, step r n a = r a + BitVec.ofNat 32 (if p n.val then 1 else 0))
    (l : List (Fin m)) (r : A → BitVec 32) :
    l.foldl step r a = r a + BitVec.ofNat 32 ((l.map Fin.val).countP fun n => p n) := by
  induction l generalizing r with
  | nil => simp
  | cons n l ih =>
    rw [List.foldl_cons, ih, hstep, List.map_cons, List.countP_cons, BitVec.add_assoc, ← BitVec.ofNat_add]
    congr 2
    by_cases h : p n.val <;> simp [h, Nat.add_comm]

/-- With no window axes, the operand's one axis inserted and named by the one component of each scalar index, update
    `n` lands at the position its index word names when that is inside the operand, and is dropped otherwise. -/
theorem resultIdx?_scalar {M N : ℕ} (d : ScatterDims ⟨1, ![M]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (n : Fin N) (v : ℕ)
    (hidx : idx (ix2 n 0) = BitVec.ofNat 32 v) (hvs : v < 2 ^ 31) :
    d.resultIdx? (ix1 n) idx = if h : v < M then some (ix1 ⟨v, h⟩) else none := by
  have hstart : ∀ a, d.start (ix1 n) idx a = (v : ℤ) := by
    intro a
    obtain ⟨uw, iw, sd, iv, wf⟩ := d
    simp only at hu hi hs hv
    subst hu hi hs hv
    unfold ScatterDims.start
    rw [dif_pos (by
      have : a = 0 := Subsingleton.elim _ _
      subst this; simp)]
    rw [← StableHlo.Predicate.toInt_ofNat_small v hvs, ← hidx]
    congr 2
    funext b
    have hj : ∀ x, (((ix1 n : (⟨1, ![N]⟩ : Shape).Idx) x : Fin _) : ℕ) = n.val := fun x => match x with | ⟨0, _⟩ => rfl
    match b with
    | ⟨1, _⟩ =>
      unfold ScatterDims.siIdx
      rw [dif_pos rfl]
      apply Fin.ext
      have : a = 0 := Subsingleton.elim _ _
      subst this
      simp
    | ⟨0, _⟩ =>
      unfold ScatterDims.siIdx
      rw [dif_neg (by show ¬ (0 : ℕ) = 1; omega)]
      apply Fin.ext
      exact hj _
  have hwin : ∀ a, d.window (ix1 n) a = 0 := by
    intro a
    unfold ScatterDims.window
    rw [dif_neg]
    intro hmem
    have h2 := (List.mem_filter.1 hmem).2
    rw [hi] at h2
    have : a = 0 := Subsingleton.elim _ _
    subst this
    simp at h2
  have hsz : ∀ a, (⟨1, ![M]⟩ : Shape).size a = M := fun a => match a with | ⟨0, _⟩ => rfl
  unfold ScatterDims.resultIdx?
  by_cases h : v < M
  · rw [dif_pos h, dif_pos (fun a => by rw [hstart, hwin, hsz]; omega)]
    congr 1
    funext a
    match a with
    | ⟨0, _⟩ =>
      apply Fin.ext
      show (d.start (ix1 n) idx 0 + ((d.window (ix1 n) 0 : ℕ) : ℤ)).toNat = v
      rw [hstart, hwin]; omega
  · rw [dif_neg h, dif_neg (fun hall => h (by
      have := hall 0
      rw [hstart, hwin, hsz] at this; omega))]

/-- Position `k` of the histogram counts the indices equal to `k`. -/
theorem scatter_add_ones_toNat {M N : ℕ} (d : ScatterDims ⟨1, ![M]⟩ ⟨2, ![N, 1]⟩ ⟨1, ![N]⟩)
    (hu : d.updateWindowDims = []) (hi : d.insertedWindowDims = [0]) (hs : d.scatterDimsToOperandDims = [0])
    (hv : d.indexVectorDim = 1)
    (x : IVec ⟨1, ![M]⟩ 32) (hx : ∀ i, x i = 0#32) (idx : IVec ⟨2, ![N, 1]⟩ 32)
    (upd : IVec ⟨1, ![N]⟩ 32) (hupd : ∀ i, upd i = 1#32)
    (g : ℕ → ℕ) (hg : ∀ n : Fin N, idx (ix2 n 0) = BitVec.ofNat 32 (g n.val)) (hgs : ∀ n < N, g n < 2 ^ 31)
    (hN : N < 2 ^ 32) (k : Fin M) :
    (Host.scatter d IntOp.addi x idx upd (ix1 k)).toNat = ((Finset.range N).filter fun n => g n = k.val).card := by
  have hnum : (⟨1, ![N]⟩ : Shape).numel = N := by simp [Shape.numel]
  -- the update index at row-major position m is the index with coordinate m
  have hrm : ∀ m : Fin (⟨1, ![N]⟩ : Shape).numel,
      (⟨1, ![N]⟩ : Shape).rowMajor.symm m = ix1 ⟨m.val, lt_of_lt_of_eq m.isLt hnum⟩ := by
    intro m
    rw [eq_ix1 ((⟨1, ![N]⟩ : Shape).rowMajor.symm m)]
    congr 1
    apply Fin.ext
    rw [← Shape.rowMajor_val_one, Equiv.apply_symm_apply]
  unfold Host.scatter
  rw [foldl_add_count _ (ix1 k) (fun n => g n = k.val) ?_ _ _]
  · -- the count, as a number below 2³², is the word's value
    have hc : ((List.map Fin.val (List.finRange (⟨1, ![N]⟩ : Shape).numel)).countP fun n => decide (g n = k.val))
        = ((Finset.range N).filter fun n => g n = k.val).card := by
      rw [List.map_coe_finRange_eq_range, hnum, Finset.card_def, Finset.filter_val, Finset.range_val,
        ← Multiset.countP_eq_card_filter]
      rfl
    have hle : ((Finset.range N).filter fun n => g n = k.val).card ≤ N := by
      simpa using Finset.card_filter_le (Finset.range N) fun n => g n = k.val
    rw [hx, BitVec.zero_add, hc, BitVec.toNat_ofNat]
    exact Nat.mod_eq_of_lt (by omega)
  · -- one step of the fold, read at position k
    intro r m
    have hmN : m.val < N := lt_of_lt_of_eq m.isLt hnum
    have hres := resultIdx?_scalar d hu hi hs hv idx ⟨m.val, hmN⟩ (g m.val) (hg ⟨m.val, hmN⟩) (hgs _ hmN)
    rw [← hrm m] at hres
    by_cases h : g m.val < M
    · rw [dif_pos h] at hres
      simp only [hres]
      by_cases e : g m.val = k.val
      · have hk : (⟨g m.val, h⟩ : Fin M) = k := Fin.ext e
        rw [hk, if_pos rfl, if_pos e, hupd]
        rfl
      · have hne : ¬ (ix1 k : (⟨1, ![M]⟩ : Shape).Idx) = ix1 ⟨g m.val, h⟩ := fun hh =>
          e (congrArg Fin.val (congrFun hh 0)).symm
        rw [if_neg hne, if_neg e]
        simp
    · rw [dif_neg h] at hres
      simp only [hres]
      have hne : ¬ g m.val = k.val := fun e => h (e ▸ k.isLt)
      simp [hne]

end Idealize.ShloMosaic.ScatterCount
-- ==== Proof.RefFlat.lean ====
/-
  The flattened position of each pair, as the reference computes it.

  The running count is its own histogram index (it is never negative, so jnp.bincount's clip and wrap leave it alone; a
  count of 2016 falls outside the histogram and is dropped); the histogram at k' counts the positions whose running count
  is k'; its running sum at k counts the positions whose running count is at most k, which is the flattened position of
  the k-th pair.
-/
import proofs.«159498_j15745350107452_1_alg».proof.Proof.RefCount
import proofs.«159498_j15745350107452_1_alg».proof.Proof.LibScatterCount

noncomputable section

namespace Cert.ReferenceIdeal.Chain

open Idealize.ShloMosaic Idealize.ShloMosaic.ValueIdx Cert.ReferenceIdeal Cert.Tri

variable [Facts]

/-- Clipping at zero and wrapping a negative value leave the running count as it is. -/
theorem countIdx_val (p : Fin 4096) : countIdx (F := Ideal) (ix1 p) = BitVec.ofNat 32 (csum p.val) := by
  have hle := csum_le p.val p.isLt
  -- the stage read at position p: the scalars broadcast, the vector operations elementwise
  have hcv : countIdx (F := Ideal) (ix1 p) =
      Scalar.select (IntOp.cmpi .slt (IntOp.maxsi 0#32 (count (F := Ideal) (ix1 p))) 0#32)
        (IntOp.addi (IntOp.maxsi 0#32 (count (F := Ideal) (ix1 p))) 2016#32)
        (IntOp.maxsi 0#32 (count (F := Ideal) (ix1 p))) := rfl
  rw [hcv, count_val p]
  have hwn : (BitVec.ofNat 32 (csum p.val)).toNat = csum p.val := by
    rw [BitVec.toNat_ofNat]; exact Nat.mod_eq_of_lt (by omega)
  generalize BitVec.ofNat 32 (csum p.val) = w at hwn ⊢
  -- a word below 2³¹ is not below zero: the maximum with 0 keeps it, and the wrap does not fire
  have hti : w.toInt = w.toNat := StableHlo.Predicate.toInt_eq_toNat_of_lt (by omega)
  have hmax : IntOp.maxsi 0#32 w = w := by
    unfold IntOp.maxsi
    rw [if_neg]
    simp only [BitVec.slt, hti, show (0#32 : BitVec 32).toInt = 0 from by decide, decide_eq_true_eq]
    omega
  have hslt : ¬ IntOp.cmpi .slt w 0#32 = 1#1 := by
    rw [StableHlo.Predicate.slt_iff_toNat (by omega) (by decide)]
    simp
  rw [hmax]
  unfold Scalar.select
  exact if_neg hslt

/-- The histogram at k' counts the positions whose running count is k'. -/
theorem bins_toNat (k' : Fin 2016) :
    (bins (F := Ideal) (ix1 k')).toNat = ((Finset.range 4096).filter fun p => csum p = k'.val).card := by
  unfold bins
  refine Idealize.ShloMosaic.ScatterCount.scatter_add_ones_toNat (M := 2016) (N := 4096)
    scatter_S2016_S4096x1_S4096_n_0_0_1 rfl rfl rfl rfl _ (fun _ => rfl) _ _ (fun _ => rfl) csum
    (fun n => ?_) (fun n hn => by have := csum_le n hn; omega) (by norm_num) k'
  -- the column of indices at (n, 0) is the index vector at n
  rw [← countIdx_val n]
  simp only [broadcastInDim]
  congr 1
  funext a
  have ha : a = 0 := Subsingleton.elim _ _
  subst ha
  apply Fin.ext
  rw [dif_neg (by show ¬ (4096 : ℕ) = 1; omega)]
  rfl

/-- The running sum of the histogram at k is the flattened position 64 i + j of the k-th pair (i, j). -/
theorem flat_val (k : Fin 2016) : flat (F := Ideal) (ix1 k) = BitVec.ofNat 32 (64 * rowOf k.val + colOf k.val) := by
  have hs := sum_bins k.val k.isLt
  have hr := rowOf_lt k
  have hc := colOf_lt k
  apply BitVec.eq_of_toNat_eq
  unfold flat
  -- the running sum of the histogram does not wrap: it is at most 4095
  refine (Idealize.ShloMosaic.Cumsum.reduceWindow_cumsum_toNat (N := 2016) (lo := 2015) rfl (bins (F := Ideal)) _
    (fun _ => rfl) _ _ (fun k' => ((Finset.range 4096).filter fun p => csum p = k').card)
    (fun q => bins_toNat q) k (hs.trans_lt (by omega))).trans ?_
  rw [BitVec.toNat_ofNat]
  exact hs.trans (Nat.mod_eq_of_lt (by omega)).symm

end Cert.ReferenceIdeal.Chain

end
-- ==== Proof.RefTable.lean ====
/-
  The table of pairs, as the reference computes it.

  From the flattened position n = 64 i + j (below 4096) jax's floor division and remainder by positive words are the
  natural-number quotient and remainder, and a non-negative index is not wrapped: the table's row k is (i, j) = (rowOf k, colOf k).
-/
import proofs.«159498_j15745350107452_1_alg».proof.Proof.RefFlat
import Idealize.ShloMosaic.Lib.StableHlo.Predicate
import Idealize.ShloMosaic.Lib.Pipeline.Value

noncomputable section

namespace Cert.ReferenceIdeal.Chain

open Idealize.ShloMosaic Idealize.ShloMosaic.ValueIdx Cert.ReferenceIdeal Cert.Tri
open Idealize.ShloMosaic.StableHlo.Predicate

namespace TableWords

/-- A natural below 2^32 is the value of its word. -/
theorem toNat_ofNat32 (n : ℕ) (h : n < 2 ^ 32) : (BitVec.ofNat 32 n).toNat = n := by
  rw [BitVec.toNat_ofNat]; exact Nat.mod_eq_of_lt h

/-- The word of a natural below 2^31 has its sign bit clear. -/
theorem msb_ofNat32 (n : ℕ) (h : n < 2 ^ 31) : (BitVec.ofNat 32 n).msb = false :=
  BitVec.msb_eq_false_iff_two_mul_lt.mpr (by rw [toNat_ofNat32 n (by omega)]; omega)

/-- The word of a positive natural below 2^32 is not zero. -/
theorem ofNat32_ne_zero (d : ℕ) (hd0 : 0 < d) (hd : d < 2 ^ 32) : BitVec.ofNat 32 d ≠ 0 := by
  intro h
  have := congrArg BitVec.toNat h
  rw [toNat_ofNat32 d hd] at this
  simp at this; omega

/-- A small positive divisor is no corner of signed division. -/
theorem not_corner (x : BitVec 32) (d : ℕ) (hd0 : 0 < d) (hd : d < 2 ^ 31) : ¬ IntOp.SDivCorner x (BitVec.ofNat 32 d) := by
  rintro (h | ⟨_, h⟩)
  · exact ofNat32_ne_zero d hd0 (by omega) h
  · have := congrArg BitVec.toNat h
    rw [toNat_ofNat32 d (by omega)] at this
    have h1 : (-1 : BitVec 32).toNat = 2 ^ 32 - 1 := by decide
    omega

/-- Signed division of a small non-negative word by a small positive word is the quotient of the naturals. -/
theorem divsi_small (u : ArithUnit) (n d : ℕ) (hn : n < 2 ^ 31) (hd0 : 0 < d) (hd : d < 2 ^ 31) :
    IntOp.divsi u (BitVec.ofNat 32 n) (BitVec.ofNat 32 d) = BitVec.ofNat 32 (n / d) := by
  have hq : n / d < 2 ^ 32 := lt_of_le_of_lt (Nat.div_le_self n d) (by omega)
  apply BitVec.eq_of_toNat_eq
  simp only [IntOp.divsi, if_neg (not_corner _ d hd0 hd), BitVec.sdiv_eq, msb_ofNat32 n hn, msb_ofNat32 d hd, BitVec.udiv_eq,
    BitVec.toNat_udiv]
  rw [toNat_ofNat32 n (by omega), toNat_ofNat32 d (by omega), toNat_ofNat32 _ hq]

/-- The signed remainder of a small non-negative word by a small positive word is the remainder of the naturals. -/
theorem remsi_small (u : ArithUnit) (n d : ℕ) (hn : n < 2 ^ 31) (hd0 : 0 < d) (hd : d < 2 ^ 31) :
    IntOp.remsi u (BitVec.ofNat 32 n) (BitVec.ofNat 32 d) = BitVec.ofNat 32 (n % d) := by
  have hq : n % d < 2 ^ 32 := lt_of_le_of_lt (Nat.mod_le n d) (by omega)
  apply BitVec.eq_of_toNat_eq
  simp only [IntOp.remsi, if_neg (not_corner _ d hd0 hd), BitVec.srem_eq, msb_ofNat32 n hn, msb_ofNat32 d hd, BitVec.umod_eq,
    BitVec.toNat_umod]
  rw [toNat_ofNat32 n (by omega), toNat_ofNat32 d (by omega), toNat_ofNat32 _ hq]

/-- A one-bit word is 0 or 1. -/
theorem bit_cases : ∀ c : BitVec 1, c = 0#1 ∨ c = 1#1 := by decide

/-- A small non-negative word is not below zero. -/
theorem cmpi_slt_zero (m : ℕ) (hm : m < 2 ^ 31) : IntOp.cmpi .slt (BitVec.ofNat 32 m) 0#32 = 0#1 := by
  rcases bit_cases (IntOp.cmpi .slt (BitVec.ofNat 32 m) 0#32) with h | h
  · exact h
  · have := (slt_iff_toNat (a := BitVec.ofNat 32 m) (b := 0#32) (by rw [toNat_ofNat32 m (by omega)]; exact hm) (by decide)).mp h
    simp at this

/-- A small positive word is not equal to zero, as a one-bit word. -/
theorem cmpi_eq_zero (d : ℕ) (hd0 : 0 < d) (hd : d < 2 ^ 32) : IntOp.cmpi .eq (BitVec.ofNat 32 d) 0#32 = 0#1 := by
  rcases bit_cases (IntOp.cmpi .eq (BitVec.ofNat 32 d) 0#32) with h | h
  · exact h
  · exact absurd (cmpi_eq_iff.mp h) (ofNat32_ne_zero d hd0 hd)

/-- A select on the one-bit word 0 takes its second branch. -/
theorem select_zero {α : Type} (a b : α) : Scalar.select 0#1 a b = b := if_neg (by decide)

theorem andi_zero_left (c : BitVec 1) : IntOp.andi 0#1 c = 0#1 := BitVec.zero_and
theorem andi_zero_right (c : BitVec 1) : IntOp.andi c 0#1 = 0#1 := BitVec.and_zero

/-- The sign word of a 32-bit word: 0, -1 or 1. -/
def sgnW (w : BitVec 32) : BitVec 32 := if w = 0 then 0 else if w.msb then -1 else 1

/-- The sign word of a small positive word is 1. -/
theorem sgnW_pos (n : ℕ) (h0 : 0 < n) (hn : n < 2 ^ 31) : sgnW (BitVec.ofNat 32 n) = 1#32 := by
  unfold sgnW
  rw [if_neg (ofNat32_ne_zero n h0 (by omega)), msb_ofNat32 n hn]
  rfl

/-- A vector as a 2016 × 1 column reads, at (k, 0), the vector at k. -/
theorem bc_col {α : Type} (h : S2016.BroadcastsInDim S2016x1 ![0]) (v : S2016.Idx → α) (k : Fin 2016) (z : Fin 1) :
    broadcastInDim S2016x1 ![0] h v (ix2 k z) = v (ix1 k) := by
  simp only [broadcastInDim]
  congr 1
  funext a
  match a with
  | ⟨0, _⟩ => rfl

end TableWords

variable [Facts]

/-- Floor division of a small non-negative word by a small positive word. -/
theorem floorDiv_apply (x : IVec S2016 32) (k : Fin 2016) (n d : ℕ) (hx : x (ix1 k) = BitVec.ofNat 32 n) (hn : n < 2 ^ 31)
    (hd0 : 0 < d) (hd : d < 2 ^ 31) : floorDiv x (cI (BitVec.ofNat 32 d)) (ix1 k) = BitVec.ofNat 32 (n / d) := by
  have hcond : IntOp.andi (IntOp.cmpi .ne (TableWords.sgnW (BitVec.ofNat 32 n)) (TableWords.sgnW (BitVec.ofNat 32 d)))
      (IntOp.cmpi .ne (BitVec.ofNat 32 (n % d)) 0#32) = 0#1 := by
    rcases Nat.eq_zero_or_pos n with h0 | h0
    · subst h0
      rw [Nat.zero_mod]
      exact TableWords.andi_zero_right _
    · rw [TableWords.sgnW_pos n h0 hn, TableWords.sgnW_pos d hd0 hd]
      exact TableWords.andi_zero_left _
  show Scalar.select
      (IntOp.andi (IntOp.cmpi .ne (TableWords.sgnW (x (ix1 k))) (TableWords.sgnW (BitVec.ofNat 32 d)))
        (IntOp.cmpi .ne (IntOp.remsi .host (x (ix1 k)) (BitVec.ofNat 32 d)) 0#32))
      (IntOp.subi (IntOp.divsi .host (x (ix1 k)) (BitVec.ofNat 32 d)) 1#32)
      (IntOp.divsi .host (x (ix1 k)) (BitVec.ofNat 32 d)) = _
  rw [hx, TableWords.remsi_small _ n d hn hd0 hd, TableWords.divsi_small _ n d hn hd0 hd, hcond, TableWords.select_zero]

/-- The remainder of a small non-negative word by a small positive word. -/
theorem remainder_apply (x : IVec S2016 32) (k : Fin 2016) (n d : ℕ) (hx : x (ix1 k) = BitVec.ofNat 32 n) (hn : n < 2 ^ 31)
    (hd0 : 0 < d) (hd : d < 2 ^ 31) : remainder x (cI (BitVec.ofNat 32 d)) (ix1 k) = BitVec.ofNat 32 (n % d) := by
  have hr : n % d < 2 ^ 31 := lt_of_le_of_lt (Nat.mod_le n d) hn
  have hY : Scalar.select (IntOp.cmpi .eq (BitVec.ofNat 32 d) 0#32) 1#32 (BitVec.ofNat 32 d) = BitVec.ofNat 32 d := by
    rw [TableWords.cmpi_eq_zero d hd0 (by omega), TableWords.select_zero]
  have h00 : IntOp.cmpi .ne (0#1) (0#1) = 0#1 := by decide
  show Scalar.select
      (IntOp.andi
        (IntOp.cmpi .ne
          (IntOp.cmpi .slt
            (IntOp.remsi .host (x (ix1 k)) (Scalar.select (IntOp.cmpi .eq (BitVec.ofNat 32 d) 0#32) 1#32 (BitVec.ofNat 32 d))) 0#32)
          (IntOp.cmpi .slt (Scalar.select (IntOp.cmpi .eq (BitVec.ofNat 32 d) 0#32) 1#32 (BitVec.ofNat 32 d)) 0#32))
        (IntOp.cmpi .ne
          (IntOp.remsi .host (x (ix1 k)) (Scalar.select (IntOp.cmpi .eq (BitVec.ofNat 32 d) 0#32) 1#32 (BitVec.ofNat 32 d))) 0#32))
      (IntOp.addi
        (IntOp.remsi .host (x (ix1 k)) (Scalar.select (IntOp.cmpi .eq (BitVec.ofNat 32 d) 0#32) 1#32 (BitVec.ofNat 32 d)))
        (Scalar.select (IntOp.cmpi .eq (BitVec.ofNat 32 d) 0#32) 1#32 (BitVec.ofNat 32 d)))
      (IntOp.remsi .host (x (ix1 k)) (Scalar.select (IntOp.cmpi .eq (BitVec.ofNat 32 d) 0#32) 1#32 (BitVec.ofNat 32 d))) = _
  rw [hY, hx, TableWords.remsi_small _ n d hn hd0 hd, TableWords.cmpi_slt_zero _ hr, TableWords.cmpi_slt_zero _ hd, h00,
    TableWords.andi_zero_left, TableWords.select_zero]

/-- A small non-negative index is not wrapped. -/
theorem wrap64_apply (v : IVec S2016 32) (k : Fin 2016) (n : ℕ) (hv : v (ix1 k) = BitVec.ofNat 32 n) (hn : n < 2 ^ 31) :
    wrap64 v (ix1 k) = BitVec.ofNat 32 n := by
  show Scalar.select (IntOp.cmpi .slt (v (ix1 k)) 0#32) (IntOp.addi (v (ix1 k)) 64#32) (v (ix1 k)) = _
  rw [hv, TableWords.cmpi_slt_zero n hn, TableWords.select_zero]

/-- The table's first column is the pairs' rows. -/
theorem table_row (k : Fin 2016) : table (F := Ideal) (ix2 k (0 : Fin 2)) = BitVec.ofNat 32 (rowOf k.val) := by
  have hp := pair_lt k.val k.isLt
  unfold table
  rw [concatenate_pair_apply_left (t := S2016x2) (s₁ := S2016x1) (s₂ := S2016x1) _ _ _ _ (ix2 k (0 : Fin 2)) rfl
    (ix2 k (0 : Fin 1)) (fun b => by match b with | ⟨0, _⟩ => rfl | ⟨1, _⟩ => rfl), TableWords.bc_col]
  unfold rows
  rw [wrap64_apply _ k _ (remainder_apply _ k _ 64 (floorDiv_apply _ k _ 64 (flat_val k) (by omega) (by omega) (by omega))
    (lt_of_le_of_lt (Nat.div_le_self _ _) (by omega)) (by omega) (by omega)) (lt_of_le_of_lt (Nat.mod_le _ _) (lt_of_le_of_lt (Nat.div_le_self _ _) (by omega)))]
  congr 1
  omega

/-- The table's second column is the pairs' columns. -/
theorem table_col (k : Fin 2016) : table (F := Ideal) (ix2 k (1 : Fin 2)) = BitVec.ofNat 32 (colOf k.val) := by
  have hp := pair_lt k.val k.isLt
  unfold table
  rw [concatenate_pair_apply_right (t := S2016x2) (s₁ := S2016x1) (s₂ := S2016x1) _ _ _ _ (ix2 k (1 : Fin 2)) rfl rfl
    (ix2 k (0 : Fin 1)) (fun b hb => by match b with | ⟨0, _⟩ => rfl | ⟨1, _⟩ => exact absurd rfl hb) rfl, TableWords.bc_col]
  unfold cols
  rw [wrap64_apply _ k _ (remainder_apply _ k _ 64 (floorDiv_apply _ k _ 1 (flat_val k) (by omega) (by omega) (by omega))
    (lt_of_le_of_lt (Nat.div_le_self _ _) (by omega)) (by omega) (by omega)) (lt_of_le_of_lt (Nat.mod_le _ _) (lt_of_le_of_lt (Nat.div_le_self _ _) (by omega)))]
  congr 1
  omega

end Cert.ReferenceIdeal.Chain

end
-- ==== Proof.RefValue.lean ====
/-
  The reference's result is the specification's function.

  The result gathers the batched Gram matrix Σ_d x (b, i, d) · x (b, j, d) at the table's pairs; the table's row k is
  (rowOf k, colOf k); so the result at (b, k) is the Gram entry of the k-th pair of the upper triangle: `Cert.Tri.G x`.
-/
import proofs.«159498_j15745350107452_1_alg».proof.Proof.RefTable
import proofs.«159498_j15745350107452_1_alg».proof.Proof.LibBatchGram

noncomputable section

namespace Cert.ReferenceIdeal.Chain

open Idealize.ShloMosaic Idealize.ShloMosaic.ValueIdx Cert.ReferenceIdeal Cert.Tri

variable [Facts]

/-- The reference's composed term, on the extended reals, is `G`. -/
theorem out_eq_G (x : FVec Ideal S16384x64x128 .f32) : out (F := Ideal) x = G x := by
  funext y
  obtain ⟨b, k, rfl⟩ : ∃ b k, y = ix2 b k := ⟨y 0, y 1, eq_ix2 y⟩
  unfold out
  -- the gather reads the batched product at (b, rowOf k, colOf k): the table's row k is that pair
  rw [Idealize.ShloMosaic.BatchGram.gather_pair_apply
    gather_S16384x64x64_S2016x2_S16384x2016_0_12_n_n_12_1_1638411 rfl rfl rfl rfl rfl rfl rfl _ (table (F := Ideal))
    rowF colF table_row table_col (by norm_num) (by norm_num) b k]
  -- and the batched product there is the Gram entry
  rw [G_apply]
  exact Idealize.ShloMosaic.BatchGram.dotGeneral_apply
    dot_S16384x64x128_S16384x64x128_S16384x64x64_2_2_1_1_0_0 rfl rfl rfl rfl rfl rfl none .single x x b (rowF k) (colF k)

end Cert.ReferenceIdeal.Chain

end
-- ==== Proof.lean ====
/-
  Pairwise dot products of 64 feature rows (the strict upper triangle of a Gram matrix), kernel against reference.

  For x of shape 16384 × 64 × 128 both programs return, at (b, k) with k < 2016, the inner product
  Σ_d x (b, i, d) · x (b, j, d) of rows i < j, where (i, j) is the k-th pair of the strict upper triangle listed row by row
  (`Cert.Tri.G`, Proof/Spec.lean).

  The kernel, per block of 128 batch rows, forms the batched product of the block with its own transpose (the bf16
  truncation of the operands is the identity on the extended reals, and the accumulator starts at zero), keeps it in a
  scratch buffer, and stores row i's slice (i, i+1 … 63) at columns off i … of its output block, off i = i (127 − i) / 2:
  63 stores that are blocks of one function and cover the block (Proof/KernelPay.lean, Proof/KernelBlock.lean); the 128
  blocks tile the result (Proof/KernelArr.lean).

  The reference computes the same batched product on the host and gathers it at jnp.triu_indices (64, 1), which it
  evaluates at run time: the mask i < j, its running count along the flattened matrix, a histogram of that count, the
  running sum of the histogram (the flattened position 64 i + j of the k-th set bit), and quotient and remainder by 64.
  That the table so computed is the row-by-row list of pairs is a counting argument over the 4096 flattened positions
  (Proof/TriCount.lean), read through the two running sums (Proof/LibCumsum.lean) and the scatter-add
  (Proof/LibScatterCount.lean); Proof/RefCount.lean, RefFlat.lean, RefTable.lean, RefValue.lean follow the program stage by
  stage, and Proof/RefRun.lean is the program's run.

  Both results being the same function of the argument, the two runs end with equal results; no law of the extended reals
  beyond the sums' own definition is used, and the precondition is not needed.
-/
import proofs.«159498_j15745350107452_1_alg».proof.Defs
import proofs.«159498_j15745350107452_1_alg».proof.Proof.Gen.Kernel
import proofs.«159498_j15745350107452_1_alg».proof.Proof.Gen.KernelIdeal
import proofs.«159498_j15745350107452_1_alg».proof.Proof.Gen.ReferenceIdeal
import proofs.«159498_j15745350107452_1_alg».proof.Proof.Gen.Pre_finite_inputs
import proofs.«159498_j15745350107452_1_alg».proof.Proof.KernelFrame
import proofs.«159498_j15745350107452_1_alg».proof.Proof.KernelArr
import proofs.«159498_j15745350107452_1_alg».proof.Proof.RefRun
import proofs.«159498_j15745350107452_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- Both programs end with `G` of the (agreeing) arguments. -/
theorem algebraic : Cert.algebraic_KernelIdeal_ReferenceIdeal := by
  intro m ρ m' ρ' _ hagree
  refine ⟨fun c => Cert.Tri.G (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.Chain.out_eq_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
